-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S100000x1 : Shape := ⟨2, ![100000, 1]⟩
abbrev S2x1600000 : Shape := ⟨2, ![2, 1600000]⟩
abbrev S1600000 : Shape := ⟨1, ![1600000]⟩
abbrev S768x768 : Shape := ⟨2, ![768, 768]⟩
abbrev S768 : Shape := ⟨1, ![768]⟩
abbrev S770x128 : Shape := ⟨2, ![770, 128]⟩
abbrev S128 : Shape := ⟨1, ![128]⟩
abbrev S128x5 : Shape := ⟨2, ![128, 5]⟩
abbrev S5 : Shape := ⟨1, ![5]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S1600000 : S_.BroadcastsInDim S1600000 (![] : Fin 0 → Fin S1600000.rank)
  reducesTo_S1600000_S_d0 : S1600000.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S770x128 : S_.BroadcastsInDim S770x128 (![] : Fin 0 → Fin S770x128.rank)
  reducesTo_S770x128_S_d0_1 : S770x128.ReducesTo [0, 1] S_
  bcast_S_S128 : S_.BroadcastsInDim S128 (![] : Fin 0 → Fin S128.rank)
  reducesTo_S128_S_d0 : S128.ReducesTo [0] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg8 : FVec F S128 .f32) (main_arg9 : FVec F S128x5 .f32) (main_arg10 : FVec F S5 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x5 .f32 := Host.absf main_arg9
  let main_cst_14 : FVec F S_ .f32 := constant S_ .f32 0x7F800000#32
  let main_v40 : FVec F S128x5 .f32 := broadcastInDim S128x5 ![] bcast_S_S128x5 main_cst_14
  let main_v41 : IVec S128x5 1 := cmpf .olt main_v39 main_v40
  let main_c_15 : IVec S_ 1 := constantI S_ 1 1#1
  let main_v42 : IVec S_ 1 := (fun x v => Host.reduce IntOp.andi x v reducesTo_S128x5_S_d0_1 h_S_) main_v41 main_c_15
  let main_v43 : IVec S_ 1 := andi main_v38 main_v42
  let main_v44 : FVec F S5 .f32 := Host.absf main_arg10
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  main_v48

def fn_part1 {F : FTy → Type} [FloatOps F] (main_arg5 : FVec F S768x768 .f32) (main_arg6 : FVec F S768 .f32) (main_arg7 : FVec F S770x128 .f32) (main_arg8 : FVec F S128 .f32) (main_arg9 : FVec F S128x5 .f32) (main_arg10 : FVec F S5 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S768x768 .f32 := Host.absf main_arg5
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S770x128 .f32 := Host.absf main_arg7
  let main_cst_10 : FVec F S_ .f32 := constant S_ .f32 0x7F800000#32
  let main_v30 : FVec F S770x128 .f32 := broadcastInDim S770x128 ![] bcast_S_S770x128 main_cst_10
  let main_v31 : IVec S770x128 1 := cmpf .olt main_v29 main_v30
  let main_c_11 : IVec S_ 1 := constantI S_ 1 1#1
  let main_v32 : IVec S_ 1 := (fun x v => Host.reduce IntOp.andi x v reducesTo_S770x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x768 .f32) (main_arg1 : FVec F S100000x1 .f32) (main_arg2 : FVec F S100000x1 .f32) (main_arg3 : IVec S2x1600000 32) (main_arg4 : FVec F S1600000 .f32) (main_arg5 : FVec F S768x768 .f32) (main_arg6 : FVec F S768 .f32) (main_arg7 : FVec F S770x128 .f32) (main_arg8 : FVec F S128 .f32) (main_arg9 : FVec F S128x5 .f32) (main_arg10 : FVec F S5 .f32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S1600000 .f32 := Host.absf main_arg4
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg5 main_arg6 main_arg7 main_arg8 main_arg9 main_arg10 main_v13 main_v16
-- ==== Kernel.lean ====
abbrev S100000x768 : Shape := ⟨2, ![100000, 768]⟩
abbrev S100000x1 : Shape := ⟨2, ![100000, 1]⟩
abbrev S2x1600000 : Shape := ⟨2, ![2, 1600000]⟩
abbrev S1600000 : Shape := ⟨1, ![1600000]⟩
abbrev S768x768 : Shape := ⟨2, ![768, 768]⟩
abbrev S768 : Shape := ⟨1, ![768]⟩
abbrev S770x128 : Shape := ⟨2, ![770, 128]⟩
abbrev S128 : Shape := ⟨1, ![128]⟩
abbrev S128x5 : Shape := ⟨2, ![128, 5]⟩
abbrev S5 : Shape := ⟨1, ![5]⟩
abbrev S1x768 : Shape := ⟨2, ![1, 768]⟩
abbrev S2000x768 : Shape := ⟨2, ![2000, 768]⟩
abbrev S100000x770 : Shape := ⟨2, ![100000, 770]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x770 : Shape := ⟨2, ![2000, 770]⟩
abbrev S2000x128 : Shape := ⟨2, ![2000, 128]⟩
abbrev S1700000x128 : Shape := ⟨2, ![1700000, 128]⟩
abbrev S1x128 : Shape := ⟨2, ![1, 128]⟩
abbrev S100000x5 : Shape := ⟨2, ![100000, 5]⟩
abbrev S2000x5 : Shape := ⟨2, ![2000, 5]⟩
abbrev S1700000x5 : Shape := ⟨2, ![1700000, 5]⟩
abbrev S1x5 : Shape := ⟨2, ![1, 5]⟩

abbrev nBuf : Space → Nat
  | .hbm => 99
  | .vmem => 16
  | .smem => 0
  | _ => 0

abbrev bufTy : (tb : Table) → Fin (tcTables nBuf tb) → BufTy
  | .hbm, ⟨0, _⟩ => ⟨S100000x768, .f32⟩
  | .hbm, ⟨1, _⟩ => ⟨S100000x1, .f32⟩
  | .hbm, ⟨2, _⟩ => ⟨S100000x1, .f32⟩
  | .hbm, ⟨3, _⟩ => ⟨S2x1600000, .i32⟩
  | .hbm, ⟨4, _⟩ => ⟨S1600000, .f32⟩
  | .hbm, ⟨5, _⟩ => ⟨S768x768, .f32⟩
  | .hbm, ⟨6, _⟩ => ⟨S768, .f32⟩
  | .hbm, ⟨7, _⟩ => ⟨S770x128, .f32⟩
  | .hbm, ⟨8, _⟩ => ⟨S128, .f32⟩
  | .hbm, ⟨9, _⟩ => ⟨S128x5, .f32⟩
  | .hbm, ⟨10, _⟩ => ⟨S5, .f32⟩
  | .hbm, ⟨11, _⟩ => ⟨S1x768, .f32⟩
  | .hbm, ⟨12, _⟩ => ⟨S100000x768, .f32⟩
  | .hbm, ⟨13, _⟩ => ⟨S100000x770, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S100000, .i32⟩
  | .hbm, ⟨19, _⟩ => ⟨S1700000, .i32⟩
  | .hbm, ⟨20, _⟩ => ⟨S1700000, .i32⟩
  | .hbm, ⟨21, _⟩ => ⟨S_, .f32⟩
  | .hbm, ⟨22, _⟩ => ⟨S100000, .f32⟩
  | .hbm, ⟨23, _⟩ => ⟨S1700000, .f32⟩
  | .hbm, ⟨24, _⟩ => ⟨S_, .f32⟩
  | .hbm, ⟨25, _⟩ => ⟨S100000, .f32⟩
  | .hbm, ⟨26, _⟩ => ⟨S1700000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x5, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x5, .f32⟩
  | .hbm, ⟨89, _⟩ => ⟨S1700000x1, .f32⟩
  | .hbm, ⟨90, _⟩ => ⟨S1700000x5, .f32⟩
  | .hbm, ⟨91, _⟩ => ⟨S1700000x5, .f32⟩
  | .hbm, ⟨92, _⟩ => ⟨S_, .f32⟩
  | .hbm, ⟨93, _⟩ => ⟨S100000x5, .f32⟩
  | .hbm, ⟨94, _⟩ => ⟨S1700000x1, .i32⟩
  | .hbm, ⟨95, _⟩ => ⟨S100000x5, .f32⟩
  | .hbm, ⟨96, _⟩ => ⟨S1x5, .f32⟩
  | .hbm, ⟨97, _⟩ => ⟨S100000x5, .f32⟩
  | .hbm, ⟨98, _⟩ => ⟨S100000x5, .f32⟩
  | .local _ .vmem, ⟨0, _⟩ => ⟨S2000x768, .f32⟩
  | .local _ .vmem, ⟨1, _⟩ => ⟨S2000x768, .f32⟩
  | .local _ .vmem, ⟨2, _⟩ => ⟨S768x768, .f32⟩
  | .local _ .vmem, ⟨3, _⟩ => ⟨S1x768, .f32⟩
  | .local _ .vmem, ⟨4, _⟩ => ⟨S2000x768, .f32⟩
  | .local _ .vmem, ⟨5, _⟩ => ⟨S2000x768, .f32⟩
  | .local _ .vmem, ⟨6, _⟩ => ⟨S2000x770, .f32⟩
  | .local _ .vmem, ⟨7, _⟩ => ⟨S2000x770, .f32⟩
  | .local _ .vmem, ⟨8, _⟩ => ⟨S770x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x5, .f32⟩
  | .local _ .vmem, ⟨14, _⟩ => ⟨S2000x5, .f32⟩
  | .local _ .vmem, ⟨15, _⟩ => ⟨S2000x5, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_cst : Ref sig .tc := ⟨.hbm, 76, rfl⟩
abbrev main_call1_v0 : Ref sig .tc := ⟨.hbm, 77, rfl⟩
abbrev main_v52 : Ref sig .tc := ⟨.hbm, 78, rfl⟩
abbrev main_v53 : Ref sig .tc := ⟨.hbm, 79, rfl⟩
abbrev main_c_9 : Ref sig .tc := ⟨.hbm, 80, rfl⟩
abbrev main_v54 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x770 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S770x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x5 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x5 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S768_S1x768 : S768.ShapeCasts S1x768
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2000x768 : S1x768.Broadcasts S2000x768
  concatenates_S100000x768_S100000x1_S100000x1_S100000x770_d1 : Shape.Concatenates [S100000x768, S100000x1, S100000x1] S100000x770 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S2000x770_S2000x770_0_0 : ∀ a, (![0, 0] : Fin 2 → Nat) a + S2000x770.size a ≤ S2000x770.size a
  h_S2000x770 : 0 < S2000x770.numel
  shapeCasts_S2000x770_S2000x770 : S2000x770.ShapeCasts S2000x770
  inb_S770x128_S770x128_0_0 : ∀ a, (![0, 0] : Fin 2 → Nat) a + S770x128.size a ≤ S770x128.size a
  h_S770x128 : 0 < S770x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x5_S128x5_0_0 : ∀ a, (![0, 0] : Fin 2 → Nat) a + S128x5.size a ≤ S128x5.size a
  h_S128x5 : 0 < S128x5.numel
  inb_S2000x5_S2000x5_0_0 : ∀ a, (![0, 0] : Fin 2 → Nat) a + S2000x5.size a ≤ S2000x5.size a
  h_S2000x5 : 0 < S2000x5.numel
  bcast_S1700000x1_S1700000x5_0_1 : S1700000x1.BroadcastsInDim S1700000x5 (![0, 1] : Fin 2 → Fin S1700000x5.rank)
  bcast_S_S100000x5 : S_.BroadcastsInDim S100000x5 (![] : Fin 0 → Fin S100000x5.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  dot_S2000x768_S768x768_S2000x768_1_0_0_1_n_n_wf : DotDims.WF S2000x768 S768x768 S2000x768 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x770_S770x128_S2000x128_1_0_0_1_n_n_wf : DotDims.WF S2000x770 S770x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x5_S2000x5_1_0_0_1_n_n_wf : DotDims.WF S2000x128 S128x5 S2000x5 [1] [0] [0] [1] [] []
  gather_S100000x5_S1700000x1_S1700000x5_1_0_n_n_0_1_15_wf : GatherDims.WF S100000x5 S1700000x1 S1700000x5 [1] [0] [] [0] [] 1 ![1, 5]
  scatter_S100000x5_S1700000x1_S1700000x5_1_0_0_1_wf : ScatterDims.WF S100000x5 S1700000x1 S1700000x5 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S100000x768.size a
  hwx0_0 : ∀ i : grid0.Coords, EltTy.bits .f32 = 32 ∨ (Rect.block (s := S100000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x768.size a ≤ S100000x768.size a
  hwx0_3 : ∀ i : grid0.Coords, EltTy.bits .f32 = 32 ∨ (Rect.block (s := S100000x768) S2000x768.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x770.size a ≤ S100000x770.size a
  hwx1_0 : ∀ i : grid1.Coords, EltTy.bits .f32 = 32 ∨ (Rect.block (s := S100000x770) S2000x770.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S770x128.size a ≤ S770x128.size a
  hwx1_1 : ∀ i : grid1.Coords, EltTy.bits .f32 = 32 ∨ (Rect.block (s := S770x128) S770x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x5.size a ≤ S128x5.size a
  hwx2_1 : ∀ i : grid2.Coords, EltTy.bits .f32 = 32 ∨ (Rect.block (s := S128x5) S128x5.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x5.size a ≤ S100000x5.size a
  hwx2_2 : ∀ i : grid2.Coords, EltTy.bits .f32 = 32 ∨ (Rect.block (s := S100000x5) S2000x5.size (cc2_transform_2 i) (hinb2_2 i)).WholeWords (EltTy.packing .f32)

variable [Facts₀]

def dot_S2000x768_S768x768_S2000x768_1_0_0_1_n_n : DotDims S2000x768 S768x768 S2000x768 where
  lhsContracting := [1]
  rhsContracting := [0]
  lhsNonContracting := [0]
  rhsNonContracting := [1]
  lhsBatch := []
  rhsBatch := []
  wf := dot_S2000x768_S768x768_S2000x768_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x770_S770x128_S2000x128_1_0_0_1_n_n : DotDims S2000x770 S770x128 S2000x128 where
  lhsContracting := [1]
  rhsContracting := [0]
  lhsNonContracting := [0]
  rhsNonContracting := [1]
  lhsBatch := []
  rhsBatch := []
  wf := dot_S2000x770_S770x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x5_S2000x5_1_0_0_1_n_n : DotDims S2000x128 S128x5 S2000x5 where
  lhsContracting := [1]
  rhsContracting := [0]
  lhsNonContracting := [0]
  rhsNonContracting := [1]
  lhsBatch := []
  rhsBatch := []
  wf := dot_S2000x128_S128x5_S2000x5_1_0_0_1_n_n_wf
def gather_S100000x5_S1700000x1_S1700000x5_1_0_n_n_0_1_15 : GatherDims S100000x5 S1700000x1 S1700000x5 where
  offsetDims := [1]
  collapsedSliceDims := [0]
  operandBatchingDims := []
  startIndicesBatchingDims := []
  startIndexMap := [0]
  indexVectorDim := 1
  sliceSizes := ![1, 5]
  wf := gather_S100000x5_S1700000x1_S1700000x5_1_0_n_n_0_1_15_wf
def scatter_S100000x5_S1700000x1_S1700000x5_1_0_0_1 : ScatterDims S100000x5 S1700000x1 S1700000x5 where
  updateWindowDims := [1]
  insertedWindowDims := [0]
  scatterDimsToOperandDims := [0]
  indexVectorDim := 1
  wf := scatter_S100000x5_S1700000x1_S1700000x5_1_0_0_1_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S2000x770.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S770x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x5.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S2000x5.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x768 : Shape := ⟨2, ![100000, 768]⟩
abbrev S100000x1 : Shape := ⟨2, ![100000, 1]⟩
abbrev S2x1600000 : Shape := ⟨2, ![2, 1600000]⟩
abbrev S1600000 : Shape := ⟨1, ![1600000]⟩
abbrev S768x768 : Shape := ⟨2, ![768, 768]⟩
abbrev S768 : Shape := ⟨1, ![768]⟩
abbrev S770x128 : Shape := ⟨2, ![770, 128]⟩
abbrev S128 : Shape := ⟨1, ![128]⟩
abbrev S128x5 : Shape := ⟨2, ![128, 5]⟩
abbrev S5 : Shape := ⟨1, ![5]⟩
abbrev S1x768 : Shape := ⟨2, ![1, 768]⟩
abbrev S100000x770 : Shape := ⟨2, ![100000, 770]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x5 : Shape := ⟨2, ![100000, 5]⟩
abbrev S1700000x5 : Shape := ⟨2, ![1700000, 5]⟩
abbrev S1x5 : Shape := ⟨2, ![1, 5]⟩

abbrev nBuf : Space → Nat
  | .hbm => 102
  | .vmem => 0
  | .smem => 0
  | _ => 0

abbrev bufTy : (tb : Table) → Fin (tcTables nBuf tb) → BufTy
  | .hbm, ⟨0, _⟩ => ⟨S100000x768, .f32⟩
  | .hbm, ⟨1, _⟩ => ⟨S100000x1, .f32⟩
  | .hbm, ⟨2, _⟩ => ⟨S100000x1, .f32⟩
  | .hbm, ⟨3, _⟩ => ⟨S2x1600000, .i32⟩
  | .hbm, ⟨4, _⟩ => ⟨S1600000, .f32⟩
  | .hbm, ⟨5, _⟩ => ⟨S768x768, .f32⟩
  | .hbm, ⟨6, _⟩ => ⟨S768, .f32⟩
  | .hbm, ⟨7, _⟩ => ⟨S770x128, .f32⟩
  | .hbm, ⟨8, _⟩ => ⟨S128, .f32⟩
  | .hbm, ⟨9, _⟩ => ⟨S128x5, .f32⟩
  | .hbm, ⟨10, _⟩ => ⟨S5, .f32⟩
  | .hbm, ⟨11, _⟩ => ⟨S100000x768, .f32⟩
  | .hbm, ⟨12, _⟩ => ⟨S1x768, .f32⟩
  | .hbm, ⟨13, _⟩ => ⟨S100000x768, .f32⟩
  | .hbm, ⟨14, _⟩ => ⟨S100000x768, .f32⟩
  | .hbm, ⟨15, _⟩ => ⟨S100000x768, .f32⟩
  | .hbm, ⟨16, _⟩ => ⟨S100000x770, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S100000, .i32⟩
  | .hbm, ⟨22, _⟩ => ⟨S1700000, .i32⟩
  | .hbm, ⟨23, _⟩ => ⟨S1700000, .i32⟩
  | .hbm, ⟨24, _⟩ => ⟨S_, .f32⟩
  | .hbm, ⟨25, _⟩ => ⟨S100000, .f32⟩
  | .hbm, ⟨26, _⟩ => ⟨S1700000, .f32⟩
  | .hbm, ⟨27, _⟩ => ⟨S_, .f32⟩
  | .hbm, ⟨28, _⟩ => ⟨S100000, .f32⟩
  | .hbm, ⟨29, _⟩ => ⟨S1700000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .i1⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000, .f32⟩
  | .hbm, ⟨58, _⟩ => ⟨S1700000, .f32⟩
  | .hbm, ⟨59, _⟩ => ⟨S100000x128, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x128, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x5, .f32⟩
  | .hbm, ⟨83, _⟩ => ⟨S1700000x1, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000x5, .f32⟩
  | .hbm, ⟨93, _⟩ => ⟨S1700000x5, .f32⟩
  | .hbm, ⟨94, _⟩ => ⟨S1700000x5, .f32⟩
  | .hbm, ⟨95, _⟩ => ⟨S_, .f32⟩
  | .hbm, ⟨96, _⟩ => ⟨S100000x5, .f32⟩
  | .hbm, ⟨97, _⟩ => ⟨S1700000x1, .i32⟩
  | .hbm, ⟨98, _⟩ => ⟨S100000x5, .f32⟩
  | .hbm, ⟨99, _⟩ => ⟨S1x5, .f32⟩
  | .hbm, ⟨100, _⟩ => ⟨S100000x5, .f32⟩
  | .hbm, ⟨101, _⟩ => ⟨S100000x5, .f32⟩
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_6 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_9 : Ref sig .tc := ⟨.hbm, 84, rfl⟩
abbrev main_v58 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_11 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]

class Facts₀ : Prop where
  bcast_S768_S1x768_1 : S768.BroadcastsInDim S1x768 (![1] : Fin 1 → Fin S1x768.rank)
  bcast_S1x768_S100000x768_0_1 : S1x768.BroadcastsInDim S100000x768 (![0, 1] : Fin 2 → Fin S100000x768.rank)
  concatenates_S100000x768_S100000x1_S100000x1_S100000x770_d1 : Shape.Concatenates [S100000x768, S100000x1, S100000x1] S100000x770 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x5_0_1 : S1700000x1.BroadcastsInDim S1700000x5 (![0, 1] : Fin 2 → Fin S1700000x5.rank)
  bcast_S_S100000x5 : S_.BroadcastsInDim S100000x5 (![] : Fin 0 → Fin S100000x5.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  dot_S100000x768_S768x768_S100000x768_1_0_0_1_n_n_wf : DotDims.WF S100000x768 S768x768 S100000x768 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x770_S770x128_S100000x128_1_0_0_1_n_n_wf : DotDims.WF S100000x770 S770x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x5_S100000x5_1_0_0_1_n_n_wf : DotDims.WF S100000x128 S128x5 S100000x5 [1] [0] [0] [1] [] []
  gather_S100000x5_S1700000x1_S1700000x5_1_0_n_n_0_1_15_wf : GatherDims.WF S100000x5 S1700000x1 S1700000x5 [1] [0] [] [0] [] 1 ![1, 5]
  scatter_S100000x5_S1700000x1_S1700000x5_1_0_0_1_wf : ScatterDims.WF S100000x5 S1700000x1 S1700000x5 [1] [0] [0] 1

variable [Facts₀]

def dot_S100000x768_S768x768_S100000x768_1_0_0_1_n_n : DotDims S100000x768 S768x768 S100000x768 where
  lhsContracting := [1]
  rhsContracting := [0]
  lhsNonContracting := [0]
  rhsNonContracting := [1]
  lhsBatch := []
  rhsBatch := []
  wf := dot_S100000x768_S768x768_S100000x768_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x770_S770x128_S100000x128_1_0_0_1_n_n : DotDims S100000x770 S770x128 S100000x128 where
  lhsContracting := [1]
  rhsContracting := [0]
  lhsNonContracting := [0]
  rhsNonContracting := [1]
  lhsBatch := []
  rhsBatch := []
  wf := dot_S100000x770_S770x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x5_S100000x5_1_0_0_1_n_n : DotDims S100000x128 S128x5 S100000x5 where
  lhsContracting := [1]
  rhsContracting := [0]
  lhsNonContracting := [0]
  rhsNonContracting := [1]
  lhsBatch := []
  rhsBatch := []
  wf := dot_S100000x128_S128x5_S100000x5_1_0_0_1_n_n_wf
def gather_S100000x5_S1700000x1_S1700000x5_1_0_n_n_0_1_15 : GatherDims S100000x5 S1700000x1 S1700000x5 where
  offsetDims := [1]
  collapsedSliceDims := [0]
  operandBatchingDims := []
  startIndicesBatchingDims := []
  startIndexMap := [0]
  indexVectorDim := 1
  sliceSizes := ![1, 5]
  wf := gather_S100000x5_S1700000x1_S1700000x5_1_0_n_n_0_1_15_wf
def scatter_S100000x5_S1700000x1_S1700000x5_1_0_0_1 : ScatterDims S100000x5 S1700000x1 S1700000x5 where
  updateWindowDims := [1]
  insertedWindowDims := [0]
  scatterDimsToOperandDims := [0]
  indexVectorDim := 1
  wf := scatter_S100000x5_S1700000x1_S1700000x5_1_0_0_1_wf

class Facts : Prop extends Facts₀ where

variable [Facts]
-- ==== Proof.Bits.Region0.lean ====
/-
  Region 0 of the program: h = tanh(embedding · Wd + bd), over the 100000 rows in blocks of 2000.
  The grid has 50 points; point t reads rows 2000·t … 2000·t+1999 of the embedding (window 0), the whole of Wd
  (window 1) and the bias as one row (window 2), both staged once and kept, and writes the same rows of h
  (window 3). The body loads the three input blocks whole, forms one matrix product into a zero accumulator, adds
  the bias row to every row, applies tanh, and stores the result over the whole output block; the load of the output
  block that precedes the store is not used. Everything here is stated at the contents V that the region finds in
  the buffers when it is entered, and for any float interpretation F.
-/
import proofs.«126019_j45543833207355_1_alg».proof.Proof.Gen.Kernel.Launch
import proofs.«126019_j45543833207355_1_alg».proof.Proof.Gen.Kernel.Skeleton
import proofs.«126019_j45543833207355_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or kept
    it from the point before (the weight's and the bias's block index never moves): window 0, the embedding's rows, -/
theorem before_in_of_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- window 1, the whole weight, -/
theorem before_in_of_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- and window 2, the bias row. -/
theorem before_in_of_2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole-block rectangles the body loads and stores through. -/
abbrev rx : Rect S2000x768 := Rect.unit (s := S2000x768) ![0, 0] S2000x768.size inb_S2000x768_S2000x768_0_0
abbrev rw' : Rect S768x768 := Rect.unit (s := S768x768) ![0, 0] S768x768.size inb_S768x768_S768x768_0_0
abbrev rb : Rect S1x768 := Rect.unit (s := S1x768) ![0, 0] S1x768.size inb_S1x768_S1x768_0_0

/-- What the body leaves in the output block: its one store, of tanh(x · w + b) of the three loaded blocks. -/
def outBlk (x : Vec F S2000x768 .f32) (w : Vec F S768x768 .f32) (b : Vec F S1x768 .f32) : Vec F S2000x768 .f32 :=
  View.canon [⟨rx, k0_pay1 (View.ld x rx) (View.ld w rw') (View.ld b rb)⟩]

/-- The one store covers the output block. -/
theorem cover (p : Vec F S2000x768 .f32) (y : S2000x768.Idx) :
    ∃ pc ∈ ([⟨rx, p⟩] : List (View.Piece (Elt F) S2000x768 .f32)), y ∈ pc.1.set :=
  View.cover_of_tiled [⟨rx, p⟩] S2000x768.size (by rfl) y

set_option maxHeartbeats 1000000 in
/-- The body on whole staging memrefs: the inputs keep their contents and the output ends at outBlk of them. -/
theorem sound_kernel (c : Dev nD) (E : Set ℕ) (i : grid0.Coords)
    (arg1 : Memref sig .tc .vmem S2000x768 .f32) (harg1 : arg1.IsWhole)
    (arg2 : Memref sig .tc .vmem S768x768 .f32) (harg2 : arg2.IsWhole)
    (arg3 : Memref sig .tc .vmem S1x768 .f32) (harg3 : arg3.IsWhole)
    (arg4 : Memref sig .tc .vmem S2000x768 .f32) (harg4 : arg4.IsWhole)
    (x : Vec F S2000x768 .f32) (w : Vec F S768x768 .f32) (b : Vec F S1x768 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (outBlk x w b)) -∗ K ⟨⟩))
      ⊢ wp frame (wpE (defs₀ (F := F)) Variants.none c none) E (cc0__dense_tanh_kernel i arg1 harg1 arg2 harg2 arg3 harg3 arg4 harg4) K := by
  simp only [cc0__dense_tanh_kernel_eq_skeleton]; unfold cc0__dense_tanh_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-- The pipeline's proof data on core c: the arrays as found; after the body each input at its block, the output at
    outBlk of the three input blocks; the invariant is the untouched rest; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outBlk (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = outBlk (blk V c 0 t) (blk V c 1 t) (blk V c 2 t) := by dsimp only [dat]

theorem before_0 (c : Dev nD) (t : Fin cfg0.N) (d) : (dat V c).before 0 t d = blk V c 0 t :=
  before_in_of_0 V (dat V c) (A_eq V c 0) (after_0 V c) t d
theorem before_1 (c : Dev nD) (t : Fin cfg0.N) (d) : (dat V c).before 1 t d = blk V c 1 t :=
  before_in_of_1 V (dat V c) (A_eq V c 1) (after_1 V c) t d
theorem before_2 (c : Dev nD) (t : Fin cfg0.N) (d) : (dat V c).before 2 t d = blk V c 2 t :=
  before_in_of_2 V (dat V c) (A_eq V c 2) (after_2 V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so sound_kernel applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Region0

end
-- ==== Proof.Bits.Region1.lean ====
/-
  Region 1 of the program: the dense part of the first graph layer, x · W1, over the 100000 rows in blocks of 2000.
  The grid has 50 points; point t reads rows 2000·t … 2000·t+1999 of the left operand (window 0), the whole right
  operand (window 1, staged once and kept), and writes the same rows of the result (window 2). The body loads the
  two input blocks whole, forms one matrix product into a zero accumulator, and stores it over the whole output
  block; the load of the output block that precedes the store is not used. Everything here is stated at the
  contents V that the region finds in the buffers when it is entered, and for any float interpretation F.
-/
import proofs.«126019_j45543833207355_1_alg».proof.Proof.Gen.Kernel.Launch
import proofs.«126019_j45543833207355_1_alg».proof.Proof.Gen.Kernel.Skeleton
import proofs.«126019_j45543833207355_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or kept
    it from the point before (the right operand's block index never moves): window 0, the left operand's rows, -/
theorem before_in_of_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- and window 1, the whole right operand. -/
theorem before_in_of_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole-block rectangles the body loads and stores through. -/
abbrev rx : Rect S2000x770 := Rect.unit (s := S2000x770) ![0, 0] S2000x770.size inb_S2000x770_S2000x770_0_0
abbrev rw' : Rect S770x128 := Rect.unit (s := S770x128) ![0, 0] S770x128.size inb_S770x128_S770x128_0_0
abbrev ro : Rect S2000x128 := Rect.unit (s := S2000x128) ![0, 0] S2000x128.size inb_S2000x128_S2000x128_0_0

/-- What the body leaves in the output block: its one store, of the product of the two loaded blocks. -/
def outBlk (x : Vec F S2000x770 .f32) (w : Vec F S770x128 .f32) : Vec F S2000x128 .f32 :=
  View.canon [⟨ro, k1_pay1 (View.ld x rx) (View.ld w rw')⟩]

/-- The one store covers the output block. -/
theorem cover (p : Vec F S2000x128 .f32) (y : S2000x128.Idx) :
    ∃ pc ∈ ([⟨ro, p⟩] : List (View.Piece (Elt F) S2000x128 .f32)), y ∈ pc.1.set :=
  View.cover_of_tiled [⟨ro, p⟩] S2000x128.size (by rfl) y

set_option maxHeartbeats 1000000 in
/-- The body on whole staging memrefs: the inputs keep their contents and the output ends at outBlk of them. -/
theorem sound_kernel (c : Dev nD) (E : Set ℕ) (i : grid1.Coords)
    (arg1 : Memref sig .tc .vmem S2000x770 .f32) (harg1 : arg1.IsWhole)
    (arg2 : Memref sig .tc .vmem S770x128 .f32) (harg2 : arg2.IsWhole)
    (arg3 : Memref sig .tc .vmem S2000x128 .f32) (harg3 : arg3.IsWhole)
    (x : Vec F S2000x770 .f32) (w : Vec F S770x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlk x w)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The pipeline's proof data on core c: the arrays as found; after the body each input at its block, the output at
    outBlk of the two input blocks; the invariant is the untouched rest; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlk (blk V c 0 t) (blk V c 1 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = outBlk (blk V c 0 t) (blk V c 1 t) := by dsimp only [dat]

theorem before_0 (c : Dev nD) (t : Fin cfg1.N) (d) : (dat V c).before 0 t d = blk V c 0 t :=
  before_in_of_0 V (dat V c) (A_eq V c 0) (after_0 V c) t d
theorem before_1 (c : Dev nD) (t : Fin cfg1.N) (d) : (dat V c).before 1 t d = blk V c 1 t :=
  before_in_of_1 V (dat V c) (A_eq V c 1) (after_1 V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks, so sound_kernel applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Region1

end
-- ==== Proof.Bits.Region2.lean ====
/-
  Region 2 of the program: the dense part of the second graph layer, x2 · W2, over the 100000 rows in blocks of 2000.
  The grid has 50 points; point t reads rows 2000·t … 2000·t+1999 of the left operand (window 0), the whole right
  operand (window 1, staged once and kept), and writes the same rows of the result (window 2). The body loads the
  two input blocks whole, forms one matrix product into a zero accumulator, and stores it over the whole output
  block; the load of the output block that precedes the store is not used. Everything here is stated at the
  contents V that the region finds in the buffers when it is entered, and for any float interpretation F.
-/
import proofs.«126019_j45543833207355_1_alg».proof.Proof.Gen.Kernel.Launch
import proofs.«126019_j45543833207355_1_alg».proof.Proof.Gen.Kernel.Skeleton
import proofs.«126019_j45543833207355_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the pipeline fetched it there or kept
    it from the point before (the right operand's block index never moves): window 0, the left operand's rows, -/
theorem before_in_of_0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- and window 1, the whole right operand. -/
theorem before_in_of_1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole-block rectangles the body loads and stores through. -/
abbrev rx : Rect S2000x128 := Rect.unit (s := S2000x128) ![0, 0] S2000x128.size inb_S2000x128_S2000x128_0_0
abbrev rw' : Rect S128x5 := Rect.unit (s := S128x5) ![0, 0] S128x5.size inb_S128x5_S128x5_0_0
abbrev ro : Rect S2000x5 := Rect.unit (s := S2000x5) ![0, 0] S2000x5.size inb_S2000x5_S2000x5_0_0

/-- What the body leaves in the output block: its one store, of the product of the two loaded blocks. -/
def outBlk (x : Vec F S2000x128 .f32) (w : Vec F S128x5 .f32) : Vec F S2000x5 .f32 :=
  View.canon [⟨ro, k2_pay1 (View.ld x rx) (View.ld w rw')⟩]

/-- The one store covers the output block. -/
theorem cover (p : Vec F S2000x5 .f32) (y : S2000x5.Idx) :
    ∃ pc ∈ ([⟨ro, p⟩] : List (View.Piece (Elt F) S2000x5 .f32)), y ∈ pc.1.set :=
  View.cover_of_tiled [⟨ro, p⟩] S2000x5.size (by rfl) y

set_option maxHeartbeats 1000000 in
/-- The body on whole staging memrefs: the inputs keep their contents and the output ends at outBlk of them. -/
theorem sound_kernel (c : Dev nD) (E : Set ℕ) (i : grid2.Coords)
    (arg1 : Memref sig .tc .vmem S2000x128 .f32) (harg1 : arg1.IsWhole)
    (arg2 : Memref sig .tc .vmem S128x5 .f32) (harg2 : arg2.IsWhole)
    (arg3 : Memref sig .tc .vmem S2000x5 .f32) (harg3 : arg3.IsWhole)
    (x : Vec F S2000x128 .f32) (w : Vec F S128x5 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlk x w)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The pipeline's proof data on core c: the arrays as found; after the body each input at its block, the output at
    outBlk of the two input blocks; the invariant is the untouched rest; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => outBlk (blk V c 0 t) (blk V c 1 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = outBlk (blk V c 0 t) (blk V c 1 t) := by dsimp only [dat]

theorem before_0 (c : Dev nD) (t : Fin cfg2.N) (d) : (dat V c).before 0 t d = blk V c 0 t :=
  before_in_of_0 V (dat V c) (A_eq V c 0) (after_0 V c) t d
theorem before_1 (c : Dev nD) (t : Fin cfg2.N) (d) : (dat V c).before 1 t d = blk V c 1 t :=
  before_in_of_1 V (dat V c) (A_eq V c 1) (after_1 V c) t d

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' memrefs hold their blocks, so sound_kernel applies; the invariant and what the
    core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Region2

end
-- ==== Proof.Bits.Run.lean ====
/-
  The run of the whole program. @main is ten items in order: a host stretch (the bias reshaped to a row), region 0
  (h = tanh(embedding · Wd + bd)), three host stretches (the concatenation [h, p_num, text_len]; the edge lists with the
  self loops appended, the weights with the constant 2 appended, the degree sums, their inverse square roots where positive;
  the per-edge normalisation), region 1 (x · W1), two host stretches (gather by source, scale, scatter-add by target, add
  the bias; relu), region 2 (x2 · W2) and a last host stretch (the same aggregation for the second layer).
  Between two items a core holds every unscoped buffer at a known valuation: the launch memory, then each host stretch's
  operations applied, then each region's arrays at what its pipeline leaves. Every weakly fair execution terminates
  with every unscoped buffer at the last valuation; no item writes an argument, so the arguments end as launched.
  For any float interpretation F.
-/
import proofs.«126019_j45543833207355_1_alg».proof.Proof.Bits.Region0
import proofs.«126019_j45543833207355_1_alg».proof.Proof.Bits.Region1
import proofs.«126019_j45543833207355_1_alg».proof.Proof.Bits.Region2
import proofs.«126019_j45543833207355_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core c's buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references (what region 0's proof data take). -/
abbrev R1 : (c : Dev nD) → (b : Ref sig .tc) → Buf (Elt F) ((c : Thread nD τ).loc b) := fun c b => W1 m c b
/-- After region 0: its arrays at what the pipeline leaves (an input as entered, the output's write-backs folded), every other
    buffer as entered. -/
def W2 (c : Dev nD) : Valuation τ sig (Elt F) :=
  Pipeline.withArrays spec0 c (W1 m c) fun w => (Region0.dat (R1 m) c).arrAt w cfg0.N
theorem W2_arr (c : Dev nD) (w : Fin cfg0.W) :
    W2 m c (Proc.devRef .tc (Pipeline.arrRef spec0 w)) = (Region0.dat (R1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_arrs (c : Dev nD) (w : Fin cfg0.W) : (Region0.dat (R1 m) c).arrAt w cfg0.N = W2 m c (Pipeline.arrRef spec0 w) :=
  (W2_arr m c w).symm
theorem W2_rest (c : Dev nD) : ∀ b, b ∉ Finset.univ.image (Pipeline.arrRef spec0) → W2 m c b = W1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
/-- Region 1's entry. -/
abbrev W5 : Dev nD → Valuation τ sig (Elt F) := fun c => StableHlo.after hostOps1_2 (W4 m c)
abbrev R5 : (c : Dev nD) → (b : Ref sig .tc) → Buf (Elt F) ((c : Thread nD τ).loc b) := fun c b => W5 m c b
/-- After region 1: its arrays at what the pipeline leaves (an input as entered, the output's write-backs folded), every other
    buffer as entered. -/
def W6 (c : Dev nD) : Valuation τ sig (Elt F) :=
  Pipeline.withArrays spec1 c (W5 m c) fun w => (Region1.dat (R5 m) c).arrAt w cfg1.N
theorem W6_arr (c : Dev nD) (w : Fin cfg1.W) :
    W6 m c (Proc.devRef .tc (Pipeline.arrRef spec1 w)) = (Region1.dat (R5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W6_arrs (c : Dev nD) (w : Fin cfg1.W) : (Region1.dat (R5 m) c).arrAt w cfg1.N = W6 m c (Pipeline.arrRef spec1 w) :=
  (W6_arr m c w).symm
theorem W6_rest (c : Dev nD) : ∀ b, b ∉ Finset.univ.image (Pipeline.arrRef spec1) → W6 m c b = W5 m c b :=
  fun b hb => W6_of_ne m c b fun w e => hb (Finset.mem_image.mpr ⟨w, Finset.mem_univ _, e⟩)

abbrev W7 : Dev nD → Valuation τ sig (Elt F) := fun c => StableHlo.after hostOps2 (W6 m c)
/-- Region 2's entry. -/
abbrev W8 : Dev nD → Valuation τ sig (Elt F) := fun c => StableHlo.after hostOps2_1 (W7 m c)
abbrev R8 : (c : Dev nD) → (b : Ref sig .tc) → Buf (Elt F) ((c : Thread nD τ).loc b) := fun c b => W8 m c b
/-- After region 2: its arrays at what the pipeline leaves (an input as entered, the output's write-backs folded), every other
    buffer as entered. -/
def W9 (c : Dev nD) : Valuation τ sig (Elt F) :=
  Pipeline.withArrays spec2 c (W8 m c) fun w => (Region2.dat (R8 m) c).arrAt w cfg2.N
theorem W9_arr (c : Dev nD) (w : Fin cfg2.W) :
    W9 m c (Proc.devRef .tc (Pipeline.arrRef spec2 w)) = (Region2.dat (R8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
theorem W9_arrs (c : Dev nD) (w : Fin cfg2.W) : (Region2.dat (R8 m) c).arrAt w cfg2.N = W9 m c (Pipeline.arrRef spec2 w) :=
  (W9_arr m c w).symm
theorem W9_rest (c : Dev nD) : ∀ b, b ∉ Finset.univ.image (Pipeline.arrRef spec2) → W9 m c b = W8 m c b :=
  fun b hb => W9_of_ne m c b fun w e => hb (Finset.mem_image.mpr ⟨w, Finset.mem_univ _, e⟩)

/-- At the return. -/
abbrev W10 : Dev nD → Valuation τ sig (Elt F) := fun c => StableHlo.after hostOps3 (W9 m c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Region0.dat (R1 m) c
  | ⟨1, _⟩ => fun c => Region1.dat (R5 m) c
  | ⟨2, _⟩ => fun c => Region2.dat (R8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it owes,
    which is nothing. -/
abbrev R (c : Dev nD) : sProp 𝕄 := iprop((∃ r, prngReg c r) ∗ ∃ W, owes (c : Thread nD τ) (0 : CellTallies nD τ sig Unit) W)
/-- A host stretch as a segment, from the contents W, with R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

-- the library's lemmas are stated over the pinned configuration, which unification reaches only by unfolding plain
-- definitions in a metavariable's type
set_option backward.isDefEq.respectTransparency.types false in
/-- Region 0 over the thread state: entered with every unscoped buffer at W1, left with them at W2. Its arrays are
    split out of the unscoped buffers and put back at what the pipeline leaves; the generator register goes into the
    body's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (R1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (fun b => W2 m c b) ((pdats m 0 c).arrAt · cfg0.N) (W2_arrs m c) (W2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unification reaches only by unfolding plain
-- definitions in a metavariable's type
set_option backward.isDefEq.respectTransparency.types false in
/-- Region 1 over the thread state: entered with every unscoped buffer at W5, left with them at W6. Its arrays are
    split out of the unscoped buffers and put back at what the pipeline leaves; the generator register goes into the
    body's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (R5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (R5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R5 m c) (fun b => W6 m c b) ((pdats m 1 c).arrAt · cfg1.N) (W6_arrs m c) (W6_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unification reaches only by unfolding plain
-- definitions in a metavariable's type
set_option backward.isDefEq.respectTransparency.types false in
/-- Region 2 over the thread state: entered with every unscoped buffer at W8, left with them at W9. Its arrays are
    split out of the unscoped buffers and put back at what the pipeline leaves; the generator register goes into the
    body's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (R8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (R8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R8 m c) (fun b => W9 m c b) ((pdats m 2 c).arrAt · cfg2.N) (W9_arrs m c) (W9_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .host (hseg hostOps2_1 hostOps2_1_sub hostOps2_1_fresh (W7 m)),
    .region (reg2 m),
    .host (hseg hostOps3 hostOps3_sub hostOps3_fresh (W9 m)) ]

-- the launch theorem's implicit arguments are found by unifying its conclusion with this one, which takes unfolding
-- plain definitions in a metavariable's type
set_option backward.isDefEq.respectTransparency.types false in
/-- From any memory with zero counters, every weakly fair execution of @main terminates, nothing faulting, and every
    final memory holds every unscoped buffer at the last valuation. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Seg.run_eq_chain,
        show (segs m).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.Kernel.Run

end
-- ==== Proof.Bits.Frame.lean ====
/-
  What the run leaves. No host operation writes an argument of @main and no region writes one back (a region's
  argument operands are input windows), so an argument's buffer at the last valuation is its launch contents: the frame.
  The result buffer is read off the same valuation.  For any float interpretation F.
-/
import proofs.«126019_j45543833207355_1_alg».proof.Proof.Bits.Run

set_option maxRecDepth 16384

noncomputable section

namespace Cert.Kernel.Run

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Region 0 changes its output array only: an input window's array is never written back, and a buffer that is no array
    of the region is not touched. -/
theorem W2_keep (c : Dev nD) (r : Ref sig .tc) (h : r ≠ main_v1) : W2 m c r = W1 m c r := by
  by_cases hr : ∃ w, Pipeline.arrRef spec0 w = r
  · obtain ⟨w, rfl⟩ := hr
    refine (W2_arr m c w).trans ?_
    match w, h with
    | ⟨0, _⟩, _ => exact ((Region0.dat (R1 m) c).arrAt_in 0 rfl _).trans (Region0.A_eq (R1 m) c 0)
    | ⟨1, _⟩, _ => exact ((Region0.dat (R1 m) c).arrAt_in 1 rfl _).trans (Region0.A_eq (R1 m) c 1)
    | ⟨2, _⟩, _ => exact ((Region0.dat (R1 m) c).arrAt_in 2 rfl _).trans (Region0.A_eq (R1 m) c 2)
    | ⟨3, _⟩, h => exact absurd rfl h
  · exact W2_of_ne m c r fun w e => hr ⟨w, e⟩

/-- Region 1 changes its output array only: an input window's array is never written back, and a buffer that is no array
    of the region is not touched. -/
theorem W6_keep (c : Dev nD) (r : Ref sig .tc) (h : r ≠ main_v35) : W6 m c r = W5 m c r := by
  by_cases hr : ∃ w, Pipeline.arrRef spec1 w = r
  · obtain ⟨w, rfl⟩ := hr
    refine (W6_arr m c w).trans ?_
    match w, h with
    | ⟨0, _⟩, _ => exact ((Region1.dat (R5 m) c).arrAt_in 0 rfl _).trans (Region1.A_eq (R5 m) c 0)
    | ⟨1, _⟩, _ => exact ((Region1.dat (R5 m) c).arrAt_in 1 rfl _).trans (Region1.A_eq (R5 m) c 1)
    | ⟨2, _⟩, h => exact absurd rfl h
  · exact W6_of_ne m c r fun w e => hr ⟨w, e⟩

/-- Region 2 changes its output array only: an input window's array is never written back, and a buffer that is no array
    of the region is not touched. -/
theorem W9_keep (c : Dev nD) (r : Ref sig .tc) (h : r ≠ main_v53) : W9 m c r = W8 m c r := by
  by_cases hr : ∃ w, Pipeline.arrRef spec2 w = r
  · obtain ⟨w, rfl⟩ := hr
    refine (W9_arr m c w).trans ?_
    match w, h with
    | ⟨0, _⟩, _ => exact ((Region2.dat (R8 m) c).arrAt_in 0 rfl _).trans (Region2.A_eq (R8 m) c 0)
    | ⟨1, _⟩, _ => exact ((Region2.dat (R8 m) c).arrAt_in 1 rfl _).trans (Region2.A_eq (R8 m) c 1)
    | ⟨2, _⟩, h => exact absurd rfl h
  · exact W9_of_ne m c r fun w e => hr ⟨w, e⟩

/-- A buffer that no item writes holds its launch contents at the return. -/
theorem W10_keep (c : Dev nD) (r : Ref sig .tc) (h0 : r ∉ hostOps0_W) (h1 : r ≠ main_v1) (h2 : r ∉ hostOps1_W)
    (h3 : r ∉ hostOps1_1_W) (h4 : r ∉ hostOps1_2_W) (h5 : r ≠ main_v35) (h6 : r ∉ hostOps2_W) (h7 : r ∉ hostOps2_1_W)
    (h8 : r ≠ main_v53) (h9 : r ∉ hostOps3_W) : W10 m c r = m ((c : Thread nD τ).loc r) :=
  calc W10 m c r
    _ = W9 m c r := StableHlo.after_of_writes_sub hostOps3 _ hostOps3_writes h9
    _ = W8 m c r := W9_keep m c r h8
    _ = W7 m c r := StableHlo.after_of_writes_sub hostOps2_1 _ hostOps2_1_writes h7
    _ = W6 m c r := StableHlo.after_of_writes_sub hostOps2 _ hostOps2_writes h6
    _ = W5 m c r := W6_keep m c r h5
    _ = W4 m c r := StableHlo.after_of_writes_sub hostOps1_2 _ hostOps1_2_writes h4
    _ = W3 m c r := StableHlo.after_of_writes_sub hostOps1_1 _ hostOps1_1_writes h3
    _ = W2 m c r := StableHlo.after_of_writes_sub hostOps1 _ hostOps1_writes h2
    _ = W1 m c r := W2_keep m c r h1
    _ = W0 m c r := StableHlo.after_of_writes_sub hostOps0 _ hostOps0_writes h0
    _ = m ((c : Thread nD τ).loc r) := rfl

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN, READ: the result buffer ends at the last valuation's contents and every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v69) = W10 m c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v69 (by decide)),
      (h c _ (mem_uc main_arg0 (by decide))).trans (W10_keep m c main_arg0 (by decide) (by decide) (by decide) (by decide) (by decide) (by decide) (by decide) (by decide) (by decide) (by decide)),
      (h c _ (mem_uc main_arg1 (by decide))).trans (W10_keep m c main_arg1 (by decide) (by decide) (by decide) (by decide) (by decide) (by decide) (by decide) (by decide) (by decide) (by decide)),
      (h c _ (mem_uc main_arg2 (by decide))).trans (W10_keep m c main_arg2 (by decide) (by decide) (by decide) (by decide) (by decide) (by decide) (by decide) (by decide) (by decide) (by decide)),
      (h c _ (mem_uc main_arg3 (by decide))).trans (W10_keep m c main_arg3 (by decide) (by decide) (by decide) (by decide) (by decide) (by decide) (by decide) (by decide) (by decide) (by decide)),
      (h c _ (mem_uc main_arg4 (by decide))).trans (W10_keep m c main_arg4 (by decide) (by decide) (by decide) (by decide) (by decide) (by decide) (by decide) (by decide) (by decide) (by decide)),
      (h c _ (mem_uc main_arg5 (by decide))).trans (W10_keep m c main_arg5 (by decide) (by decide) (by decide) (by decide) (by decide) (by decide) (by decide) (by decide) (by decide) (by decide)),
      (h c _ (mem_uc main_arg6 (by decide))).trans (W10_keep m c main_arg6 (by decide) (by decide) (by decide) (by decide) (by decide) (by decide) (by decide) (by decide) (by decide) (by decide)),
      (h c _ (mem_uc main_arg7 (by decide))).trans (W10_keep m c main_arg7 (by decide) (by decide) (by decide) (by decide) (by decide) (by decide) (by decide) (by decide) (by decide) (by decide)),
      (h c _ (mem_uc main_arg8 (by decide))).trans (W10_keep m c main_arg8 (by decide) (by decide) (by decide) (by decide) (by decide) (by decide) (by decide) (by decide) (by decide) (by decide)),
      (h c _ (mem_uc main_arg9 (by decide))).trans (W10_keep m c main_arg9 (by decide) (by decide) (by decide) (by decide) (by decide) (by decide) (by decide) (by decide) (by decide) (by decide)),
      (h c _ (mem_uc main_arg10 (by decide))).trans (W10_keep m c main_arg10 (by decide) (by decide) (by decide) (by decide) (by decide) (by decide) (by decide) (by decide) (by decide) (by decide))⟩)
    (run_all m ρ)

/-- THE FRAME: every weakly fair execution terminates, nothing faulting, with the arguments as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_result m ρ)

end Cert.Kernel.Run

end
-- ==== Proof.Ideal.Region0.lean ====
/-
  Region 0 of the program: h = tanh(embedding · Wd + bd), over the 100000 rows in blocks of 2000.
  The grid has 50 points; point t reads rows 2000·t … 2000·t+1999 of the embedding (window 0), the whole of Wd
  (window 1) and the bias as one row (window 2), both staged once and kept, and writes the same rows of h
  (window 3). The body loads the three input blocks whole, forms one matrix product into a zero accumulator, adds
  the bias row to every row, applies tanh, and stores the result over the whole output block; the load of the output
  block that precedes the store is not used. Everything here is stated at the contents V that the region finds in
  the buffers when it is entered, and for any float interpretation F.
-/
import proofs.«126019_j45543833207355_1_alg».proof.Proof.Gen.KernelIdeal.Launch
import proofs.«126019_j45543833207355_1_alg».proof.Proof.Gen.KernelIdeal.Skeleton
import proofs.«126019_j45543833207355_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or kept
    it from the point before (the weight's and the bias's block index never moves): window 0, the embedding's rows, -/
theorem before_in_of_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- window 1, the whole weight, -/
theorem before_in_of_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- and window 2, the bias row. -/
theorem before_in_of_2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole-block rectangles the body loads and stores through. -/
abbrev rx : Rect S2000x768 := Rect.unit (s := S2000x768) ![0, 0] S2000x768.size inb_S2000x768_S2000x768_0_0
abbrev rw' : Rect S768x768 := Rect.unit (s := S768x768) ![0, 0] S768x768.size inb_S768x768_S768x768_0_0
abbrev rb : Rect S1x768 := Rect.unit (s := S1x768) ![0, 0] S1x768.size inb_S1x768_S1x768_0_0

/-- What the body leaves in the output block: its one store, of tanh(x · w + b) of the three loaded blocks. -/
def outBlk (x : Vec F S2000x768 .f32) (w : Vec F S768x768 .f32) (b : Vec F S1x768 .f32) : Vec F S2000x768 .f32 :=
  View.canon [⟨rx, k0_pay1 (View.ld x rx) (View.ld w rw') (View.ld b rb)⟩]

/-- The one store covers the output block. -/
theorem cover (p : Vec F S2000x768 .f32) (y : S2000x768.Idx) :
    ∃ pc ∈ ([⟨rx, p⟩] : List (View.Piece (Elt F) S2000x768 .f32)), y ∈ pc.1.set :=
  View.cover_of_tiled [⟨rx, p⟩] S2000x768.size (by rfl) y

set_option maxHeartbeats 1000000 in
/-- The body on whole staging memrefs: the inputs keep their contents and the output ends at outBlk of them. -/
theorem sound_kernel (c : Dev nD) (E : Set ℕ) (i : grid0.Coords)
    (arg1 : Memref sig .tc .vmem S2000x768 .f32) (harg1 : arg1.IsWhole)
    (arg2 : Memref sig .tc .vmem S768x768 .f32) (harg2 : arg2.IsWhole)
    (arg3 : Memref sig .tc .vmem S1x768 .f32) (harg3 : arg3.IsWhole)
    (arg4 : Memref sig .tc .vmem S2000x768 .f32) (harg4 : arg4.IsWhole)
    (x : Vec F S2000x768 .f32) (w : Vec F S768x768 .f32) (b : Vec F S1x768 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (outBlk x w b)) -∗ K ⟨⟩))
      ⊢ wp frame (wpE (defs₀ (F := F)) Variants.none c none) E (cc0__dense_tanh_kernel i arg1 harg1 arg2 harg2 arg3 harg3 arg4 harg4) K := by
  simp only [cc0__dense_tanh_kernel_eq_skeleton]; unfold cc0__dense_tanh_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-- The pipeline's proof data on core c: the arrays as found; after the body each input at its block, the output at
    outBlk of the three input blocks; the invariant is the untouched rest; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outBlk (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = outBlk (blk V c 0 t) (blk V c 1 t) (blk V c 2 t) := by dsimp only [dat]

theorem before_0 (c : Dev nD) (t : Fin cfg0.N) (d) : (dat V c).before 0 t d = blk V c 0 t :=
  before_in_of_0 V (dat V c) (A_eq V c 0) (after_0 V c) t d
theorem before_1 (c : Dev nD) (t : Fin cfg0.N) (d) : (dat V c).before 1 t d = blk V c 1 t :=
  before_in_of_1 V (dat V c) (A_eq V c 1) (after_1 V c) t d
theorem before_2 (c : Dev nD) (t : Fin cfg0.N) (d) : (dat V c).before 2 t d = blk V c 2 t :=
  before_in_of_2 V (dat V c) (A_eq V c 2) (after_2 V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so sound_kernel applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Region0

end
-- ==== Proof.Ideal.Region1.lean ====
/-
  Region 1 of the program: the dense part of the first graph layer, x · W1, over the 100000 rows in blocks of 2000.
  The grid has 50 points; point t reads rows 2000·t … 2000·t+1999 of the left operand (window 0), the whole right
  operand (window 1, staged once and kept), and writes the same rows of the result (window 2). The body loads the
  two input blocks whole, forms one matrix product into a zero accumulator, and stores it over the whole output
  block; the load of the output block that precedes the store is not used. Everything here is stated at the
  contents V that the region finds in the buffers when it is entered, and for any float interpretation F.
-/
import proofs.«126019_j45543833207355_1_alg».proof.Proof.Gen.KernelIdeal.Launch
import proofs.«126019_j45543833207355_1_alg».proof.Proof.Gen.KernelIdeal.Skeleton
import proofs.«126019_j45543833207355_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or kept
    it from the point before (the right operand's block index never moves): window 0, the left operand's rows, -/
theorem before_in_of_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- and window 1, the whole right operand. -/
theorem before_in_of_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole-block rectangles the body loads and stores through. -/
abbrev rx : Rect S2000x770 := Rect.unit (s := S2000x770) ![0, 0] S2000x770.size inb_S2000x770_S2000x770_0_0
abbrev rw' : Rect S770x128 := Rect.unit (s := S770x128) ![0, 0] S770x128.size inb_S770x128_S770x128_0_0
abbrev ro : Rect S2000x128 := Rect.unit (s := S2000x128) ![0, 0] S2000x128.size inb_S2000x128_S2000x128_0_0

/-- What the body leaves in the output block: its one store, of the product of the two loaded blocks. -/
def outBlk (x : Vec F S2000x770 .f32) (w : Vec F S770x128 .f32) : Vec F S2000x128 .f32 :=
  View.canon [⟨ro, k1_pay1 (View.ld x rx) (View.ld w rw')⟩]

/-- The one store covers the output block. -/
theorem cover (p : Vec F S2000x128 .f32) (y : S2000x128.Idx) :
    ∃ pc ∈ ([⟨ro, p⟩] : List (View.Piece (Elt F) S2000x128 .f32)), y ∈ pc.1.set :=
  View.cover_of_tiled [⟨ro, p⟩] S2000x128.size (by rfl) y

set_option maxHeartbeats 1000000 in
/-- The body on whole staging memrefs: the inputs keep their contents and the output ends at outBlk of them. -/
theorem sound_kernel (c : Dev nD) (E : Set ℕ) (i : grid1.Coords)
    (arg1 : Memref sig .tc .vmem S2000x770 .f32) (harg1 : arg1.IsWhole)
    (arg2 : Memref sig .tc .vmem S770x128 .f32) (harg2 : arg2.IsWhole)
    (arg3 : Memref sig .tc .vmem S2000x128 .f32) (harg3 : arg3.IsWhole)
    (x : Vec F S2000x770 .f32) (w : Vec F S770x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlk x w)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The pipeline's proof data on core c: the arrays as found; after the body each input at its block, the output at
    outBlk of the two input blocks; the invariant is the untouched rest; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlk (blk V c 0 t) (blk V c 1 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = outBlk (blk V c 0 t) (blk V c 1 t) := by dsimp only [dat]

theorem before_0 (c : Dev nD) (t : Fin cfg1.N) (d) : (dat V c).before 0 t d = blk V c 0 t :=
  before_in_of_0 V (dat V c) (A_eq V c 0) (after_0 V c) t d
theorem before_1 (c : Dev nD) (t : Fin cfg1.N) (d) : (dat V c).before 1 t d = blk V c 1 t :=
  before_in_of_1 V (dat V c) (A_eq V c 1) (after_1 V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks, so sound_kernel applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Region1

end
-- ==== Proof.Ideal.Region2.lean ====
/-
  Region 2 of the program: the dense part of the second graph layer, x2 · W2, over the 100000 rows in blocks of 2000.
  The grid has 50 points; point t reads rows 2000·t … 2000·t+1999 of the left operand (window 0), the whole right
  operand (window 1, staged once and kept), and writes the same rows of the result (window 2). The body loads the
  two input blocks whole, forms one matrix product into a zero accumulator, and stores it over the whole output
  block; the load of the output block that precedes the store is not used. Everything here is stated at the
  contents V that the region finds in the buffers when it is entered, and for any float interpretation F.
-/
import proofs.«126019_j45543833207355_1_alg».proof.Proof.Gen.KernelIdeal.Launch
import proofs.«126019_j45543833207355_1_alg».proof.Proof.Gen.KernelIdeal.Skeleton
import proofs.«126019_j45543833207355_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the pipeline fetched it there or kept
    it from the point before (the right operand's block index never moves): window 0, the left operand's rows, -/
theorem before_in_of_0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- and window 1, the whole right operand. -/
theorem before_in_of_1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole-block rectangles the body loads and stores through. -/
abbrev rx : Rect S2000x128 := Rect.unit (s := S2000x128) ![0, 0] S2000x128.size inb_S2000x128_S2000x128_0_0
abbrev rw' : Rect S128x5 := Rect.unit (s := S128x5) ![0, 0] S128x5.size inb_S128x5_S128x5_0_0
abbrev ro : Rect S2000x5 := Rect.unit (s := S2000x5) ![0, 0] S2000x5.size inb_S2000x5_S2000x5_0_0

/-- What the body leaves in the output block: its one store, of the product of the two loaded blocks. -/
def outBlk (x : Vec F S2000x128 .f32) (w : Vec F S128x5 .f32) : Vec F S2000x5 .f32 :=
  View.canon [⟨ro, k2_pay1 (View.ld x rx) (View.ld w rw')⟩]

/-- The one store covers the output block. -/
theorem cover (p : Vec F S2000x5 .f32) (y : S2000x5.Idx) :
    ∃ pc ∈ ([⟨ro, p⟩] : List (View.Piece (Elt F) S2000x5 .f32)), y ∈ pc.1.set :=
  View.cover_of_tiled [⟨ro, p⟩] S2000x5.size (by rfl) y

set_option maxHeartbeats 1000000 in
/-- The body on whole staging memrefs: the inputs keep their contents and the output ends at outBlk of them. -/
theorem sound_kernel (c : Dev nD) (E : Set ℕ) (i : grid2.Coords)
    (arg1 : Memref sig .tc .vmem S2000x128 .f32) (harg1 : arg1.IsWhole)
    (arg2 : Memref sig .tc .vmem S128x5 .f32) (harg2 : arg2.IsWhole)
    (arg3 : Memref sig .tc .vmem S2000x5 .f32) (harg3 : arg3.IsWhole)
    (x : Vec F S2000x128 .f32) (w : Vec F S128x5 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlk x w)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The pipeline's proof data on core c: the arrays as found; after the body each input at its block, the output at
    outBlk of the two input blocks; the invariant is the untouched rest; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => outBlk (blk V c 0 t) (blk V c 1 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = outBlk (blk V c 0 t) (blk V c 1 t) := by dsimp only [dat]

theorem before_0 (c : Dev nD) (t : Fin cfg2.N) (d) : (dat V c).before 0 t d = blk V c 0 t :=
  before_in_of_0 V (dat V c) (A_eq V c 0) (after_0 V c) t d
theorem before_1 (c : Dev nD) (t : Fin cfg2.N) (d) : (dat V c).before 1 t d = blk V c 1 t :=
  before_in_of_1 V (dat V c) (A_eq V c 1) (after_1 V c) t d

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' memrefs hold their blocks, so sound_kernel applies; the invariant and what the
    core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Region2

end
-- ==== Proof.Ideal.Run.lean ====
/-
  The run of the whole program. @main is ten items in order: a host stretch (the bias reshaped to a row), region 0
  (h = tanh(embedding · Wd + bd)), three host stretches (the concatenation [h, p_num, text_len]; the edge lists with the
  self loops appended, the weights with the constant 2 appended, the degree sums, their inverse square roots where positive;
  the per-edge normalisation), region 1 (x · W1), two host stretches (gather by source, scale, scatter-add by target, add
  the bias; relu), region 2 (x2 · W2) and a last host stretch (the same aggregation for the second layer).
  Between two items a core holds every unscoped buffer at a known valuation: the launch memory, then each host stretch's
  operations applied, then each region's arrays at what its pipeline leaves. Every weakly fair execution terminates
  with every unscoped buffer at the last valuation; no item writes an argument, so the arguments end as launched.
  For any float interpretation F.
-/
import proofs.«126019_j45543833207355_1_alg».proof.Proof.Ideal.Region0
import proofs.«126019_j45543833207355_1_alg».proof.Proof.Ideal.Region1
import proofs.«126019_j45543833207355_1_alg».proof.Proof.Ideal.Region2
import proofs.«126019_j45543833207355_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core c's buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references (what region 0's proof data take). -/
abbrev R1 : (c : Dev nD) → (b : Ref sig .tc) → Buf (Elt F) ((c : Thread nD τ).loc b) := fun c b => W1 m c b
/-- After region 0: its arrays at what the pipeline leaves (an input as entered, the output's write-backs folded), every other
    buffer as entered. -/
def W2 (c : Dev nD) : Valuation τ sig (Elt F) :=
  Pipeline.withArrays spec0 c (W1 m c) fun w => (Region0.dat (R1 m) c).arrAt w cfg0.N
theorem W2_arr (c : Dev nD) (w : Fin cfg0.W) :
    W2 m c (Proc.devRef .tc (Pipeline.arrRef spec0 w)) = (Region0.dat (R1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_arrs (c : Dev nD) (w : Fin cfg0.W) : (Region0.dat (R1 m) c).arrAt w cfg0.N = W2 m c (Pipeline.arrRef spec0 w) :=
  (W2_arr m c w).symm
theorem W2_rest (c : Dev nD) : ∀ b, b ∉ Finset.univ.image (Pipeline.arrRef spec0) → W2 m c b = W1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
/-- Region 1's entry. -/
abbrev W5 : Dev nD → Valuation τ sig (Elt F) := fun c => StableHlo.after hostOps1_2 (W4 m c)
abbrev R5 : (c : Dev nD) → (b : Ref sig .tc) → Buf (Elt F) ((c : Thread nD τ).loc b) := fun c b => W5 m c b
/-- After region 1: its arrays at what the pipeline leaves (an input as entered, the output's write-backs folded), every other
    buffer as entered. -/
def W6 (c : Dev nD) : Valuation τ sig (Elt F) :=
  Pipeline.withArrays spec1 c (W5 m c) fun w => (Region1.dat (R5 m) c).arrAt w cfg1.N
theorem W6_arr (c : Dev nD) (w : Fin cfg1.W) :
    W6 m c (Proc.devRef .tc (Pipeline.arrRef spec1 w)) = (Region1.dat (R5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W6_arrs (c : Dev nD) (w : Fin cfg1.W) : (Region1.dat (R5 m) c).arrAt w cfg1.N = W6 m c (Pipeline.arrRef spec1 w) :=
  (W6_arr m c w).symm
theorem W6_rest (c : Dev nD) : ∀ b, b ∉ Finset.univ.image (Pipeline.arrRef spec1) → W6 m c b = W5 m c b :=
  fun b hb => W6_of_ne m c b fun w e => hb (Finset.mem_image.mpr ⟨w, Finset.mem_univ _, e⟩)

abbrev W7 : Dev nD → Valuation τ sig (Elt F) := fun c => StableHlo.after hostOps2 (W6 m c)
/-- Region 2's entry. -/
abbrev W8 : Dev nD → Valuation τ sig (Elt F) := fun c => StableHlo.after hostOps2_1 (W7 m c)
abbrev R8 : (c : Dev nD) → (b : Ref sig .tc) → Buf (Elt F) ((c : Thread nD τ).loc b) := fun c b => W8 m c b
/-- After region 2: its arrays at what the pipeline leaves (an input as entered, the output's write-backs folded), every other
    buffer as entered. -/
def W9 (c : Dev nD) : Valuation τ sig (Elt F) :=
  Pipeline.withArrays spec2 c (W8 m c) fun w => (Region2.dat (R8 m) c).arrAt w cfg2.N
theorem W9_arr (c : Dev nD) (w : Fin cfg2.W) :
    W9 m c (Proc.devRef .tc (Pipeline.arrRef spec2 w)) = (Region2.dat (R8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
theorem W9_arrs (c : Dev nD) (w : Fin cfg2.W) : (Region2.dat (R8 m) c).arrAt w cfg2.N = W9 m c (Pipeline.arrRef spec2 w) :=
  (W9_arr m c w).symm
theorem W9_rest (c : Dev nD) : ∀ b, b ∉ Finset.univ.image (Pipeline.arrRef spec2) → W9 m c b = W8 m c b :=
  fun b hb => W9_of_ne m c b fun w e => hb (Finset.mem_image.mpr ⟨w, Finset.mem_univ _, e⟩)

/-- At the return. -/
abbrev W10 : Dev nD → Valuation τ sig (Elt F) := fun c => StableHlo.after hostOps3 (W9 m c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Region0.dat (R1 m) c
  | ⟨1, _⟩ => fun c => Region1.dat (R5 m) c
  | ⟨2, _⟩ => fun c => Region2.dat (R8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it owes,
    which is nothing. -/
abbrev R (c : Dev nD) : sProp 𝕄 := iprop((∃ r, prngReg c r) ∗ ∃ W, owes (c : Thread nD τ) (0 : CellTallies nD τ sig Unit) W)
/-- A host stretch as a segment, from the contents W, with R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

-- the library's lemmas are stated over the pinned configuration, which unification reaches only by unfolding plain
-- definitions in a metavariable's type
set_option backward.isDefEq.respectTransparency.types false in
/-- Region 0 over the thread state: entered with every unscoped buffer at W1, left with them at W2. Its arrays are
    split out of the unscoped buffers and put back at what the pipeline leaves; the generator register goes into the
    body's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (R1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (fun b => W2 m c b) ((pdats m 0 c).arrAt · cfg0.N) (W2_arrs m c) (W2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unification reaches only by unfolding plain
-- definitions in a metavariable's type
set_option backward.isDefEq.respectTransparency.types false in
/-- Region 1 over the thread state: entered with every unscoped buffer at W5, left with them at W6. Its arrays are
    split out of the unscoped buffers and put back at what the pipeline leaves; the generator register goes into the
    body's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (R5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (R5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R5 m c) (fun b => W6 m c b) ((pdats m 1 c).arrAt · cfg1.N) (W6_arrs m c) (W6_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unification reaches only by unfolding plain
-- definitions in a metavariable's type
set_option backward.isDefEq.respectTransparency.types false in
/-- Region 2 over the thread state: entered with every unscoped buffer at W8, left with them at W9. Its arrays are
    split out of the unscoped buffers and put back at what the pipeline leaves; the generator register goes into the
    body's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (R8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (R8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R8 m c) (fun b => W9 m c b) ((pdats m 2 c).arrAt · cfg2.N) (W9_arrs m c) (W9_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .host (hseg hostOps2_1 hostOps2_1_sub hostOps2_1_fresh (W7 m)),
    .region (reg2 m),
    .host (hseg hostOps3 hostOps3_sub hostOps3_fresh (W9 m)) ]

-- the launch theorem's implicit arguments are found by unifying its conclusion with this one, which takes unfolding
-- plain definitions in a metavariable's type
set_option backward.isDefEq.respectTransparency.types false in
/-- From any memory with zero counters, every weakly fair execution of @main terminates, nothing faulting, and every
    final memory holds every unscoped buffer at the last valuation. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Seg.run_eq_chain,
        show (segs m).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Run

end
-- ==== Proof.Ideal.Frame.lean ====
/-
  What the run leaves. No host operation writes an argument of @main and no region writes one back (a region's
  argument operands are input windows), so an argument's buffer at the last valuation is its launch contents: the frame.
  The result buffer is read off the same valuation.  For any float interpretation F.
-/
import proofs.«126019_j45543833207355_1_alg».proof.Proof.Ideal.Run

set_option maxRecDepth 16384

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Region 0 changes its output array only: an input window's array is never written back, and a buffer that is no array
    of the region is not touched. -/
theorem W2_keep (c : Dev nD) (r : Ref sig .tc) (h : r ≠ main_v1) : W2 m c r = W1 m c r := by
  by_cases hr : ∃ w, Pipeline.arrRef spec0 w = r
  · obtain ⟨w, rfl⟩ := hr
    refine (W2_arr m c w).trans ?_
    match w, h with
    | ⟨0, _⟩, _ => exact ((Region0.dat (R1 m) c).arrAt_in 0 rfl _).trans (Region0.A_eq (R1 m) c 0)
    | ⟨1, _⟩, _ => exact ((Region0.dat (R1 m) c).arrAt_in 1 rfl _).trans (Region0.A_eq (R1 m) c 1)
    | ⟨2, _⟩, _ => exact ((Region0.dat (R1 m) c).arrAt_in 2 rfl _).trans (Region0.A_eq (R1 m) c 2)
    | ⟨3, _⟩, h => exact absurd rfl h
  · exact W2_of_ne m c r fun w e => hr ⟨w, e⟩

/-- Region 1 changes its output array only: an input window's array is never written back, and a buffer that is no array
    of the region is not touched. -/
theorem W6_keep (c : Dev nD) (r : Ref sig .tc) (h : r ≠ main_v35) : W6 m c r = W5 m c r := by
  by_cases hr : ∃ w, Pipeline.arrRef spec1 w = r
  · obtain ⟨w, rfl⟩ := hr
    refine (W6_arr m c w).trans ?_
    match w, h with
    | ⟨0, _⟩, _ => exact ((Region1.dat (R5 m) c).arrAt_in 0 rfl _).trans (Region1.A_eq (R5 m) c 0)
    | ⟨1, _⟩, _ => exact ((Region1.dat (R5 m) c).arrAt_in 1 rfl _).trans (Region1.A_eq (R5 m) c 1)
    | ⟨2, _⟩, h => exact absurd rfl h
  · exact W6_of_ne m c r fun w e => hr ⟨w, e⟩

/-- Region 2 changes its output array only: an input window's array is never written back, and a buffer that is no array
    of the region is not touched. -/
theorem W9_keep (c : Dev nD) (r : Ref sig .tc) (h : r ≠ main_v53) : W9 m c r = W8 m c r := by
  by_cases hr : ∃ w, Pipeline.arrRef spec2 w = r
  · obtain ⟨w, rfl⟩ := hr
    refine (W9_arr m c w).trans ?_
    match w, h with
    | ⟨0, _⟩, _ => exact ((Region2.dat (R8 m) c).arrAt_in 0 rfl _).trans (Region2.A_eq (R8 m) c 0)
    | ⟨1, _⟩, _ => exact ((Region2.dat (R8 m) c).arrAt_in 1 rfl _).trans (Region2.A_eq (R8 m) c 1)
    | ⟨2, _⟩, h => exact absurd rfl h
  · exact W9_of_ne m c r fun w e => hr ⟨w, e⟩

/-- A buffer that no item writes holds its launch contents at the return. -/
theorem W10_keep (c : Dev nD) (r : Ref sig .tc) (h0 : r ∉ hostOps0_W) (h1 : r ≠ main_v1) (h2 : r ∉ hostOps1_W)
    (h3 : r ∉ hostOps1_1_W) (h4 : r ∉ hostOps1_2_W) (h5 : r ≠ main_v35) (h6 : r ∉ hostOps2_W) (h7 : r ∉ hostOps2_1_W)
    (h8 : r ≠ main_v53) (h9 : r ∉ hostOps3_W) : W10 m c r = m ((c : Thread nD τ).loc r) :=
  calc W10 m c r
    _ = W9 m c r := StableHlo.after_of_writes_sub hostOps3 _ hostOps3_writes h9
    _ = W8 m c r := W9_keep m c r h8
    _ = W7 m c r := StableHlo.after_of_writes_sub hostOps2_1 _ hostOps2_1_writes h7
    _ = W6 m c r := StableHlo.after_of_writes_sub hostOps2 _ hostOps2_writes h6
    _ = W5 m c r := W6_keep m c r h5
    _ = W4 m c r := StableHlo.after_of_writes_sub hostOps1_2 _ hostOps1_2_writes h4
    _ = W3 m c r := StableHlo.after_of_writes_sub hostOps1_1 _ hostOps1_1_writes h3
    _ = W2 m c r := StableHlo.after_of_writes_sub hostOps1 _ hostOps1_writes h2
    _ = W1 m c r := W2_keep m c r h1
    _ = W0 m c r := StableHlo.after_of_writes_sub hostOps0 _ hostOps0_writes h0
    _ = m ((c : Thread nD τ).loc r) := rfl

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN, READ: the result buffer ends at the last valuation's contents and every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v69) = W10 m c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v69 (by decide)),
      (h c _ (mem_uc main_arg0 (by decide))).trans (W10_keep m c main_arg0 (by decide) (by decide) (by decide) (by decide) (by decide) (by decide) (by decide) (by decide) (by decide) (by decide)),
      (h c _ (mem_uc main_arg1 (by decide))).trans (W10_keep m c main_arg1 (by decide) (by decide) (by decide) (by decide) (by decide) (by decide) (by decide) (by decide) (by decide) (by decide)),
      (h c _ (mem_uc main_arg2 (by decide))).trans (W10_keep m c main_arg2 (by decide) (by decide) (by decide) (by decide) (by decide) (by decide) (by decide) (by decide) (by decide) (by decide)),
      (h c _ (mem_uc main_arg3 (by decide))).trans (W10_keep m c main_arg3 (by decide) (by decide) (by decide) (by decide) (by decide) (by decide) (by decide) (by decide) (by decide) (by decide)),
      (h c _ (mem_uc main_arg4 (by decide))).trans (W10_keep m c main_arg4 (by decide) (by decide) (by decide) (by decide) (by decide) (by decide) (by decide) (by decide) (by decide) (by decide)),
      (h c _ (mem_uc main_arg5 (by decide))).trans (W10_keep m c main_arg5 (by decide) (by decide) (by decide) (by decide) (by decide) (by decide) (by decide) (by decide) (by decide) (by decide)),
      (h c _ (mem_uc main_arg6 (by decide))).trans (W10_keep m c main_arg6 (by decide) (by decide) (by decide) (by decide) (by decide) (by decide) (by decide) (by decide) (by decide) (by decide)),
      (h c _ (mem_uc main_arg7 (by decide))).trans (W10_keep m c main_arg7 (by decide) (by decide) (by decide) (by decide) (by decide) (by decide) (by decide) (by decide) (by decide) (by decide)),
      (h c _ (mem_uc main_arg8 (by decide))).trans (W10_keep m c main_arg8 (by decide) (by decide) (by decide) (by decide) (by decide) (by decide) (by decide) (by decide) (by decide) (by decide)),
      (h c _ (mem_uc main_arg9 (by decide))).trans (W10_keep m c main_arg9 (by decide) (by decide) (by decide) (by decide) (by decide) (by decide) (by decide) (by decide) (by decide) (by decide)),
      (h c _ (mem_uc main_arg10 (by decide))).trans (W10_keep m c main_arg10 (by decide) (by decide) (by decide) (by decide) (by decide) (by decide) (by decide) (by decide) (by decide) (by decide))⟩)
    (run_all m ρ)

/-- THE FRAME: every weakly fair execution terminates, nothing faulting, with the arguments as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_result m ρ)

end Cert.KernelIdeal.Run

end
-- ==== Proof.LibPlainDot.lean ====
/-
  Four reads at an index, general in the sizes, for rank-two vectors over any element type (the product at Ideal).

  * A plain product (rows x contraction times contraction x columns, no batch axis) into the zero accumulator, read at
    (r, c), is the sum over the contracted axis of lhs (r, k) * rhs (k, c).
  * A unit-stride slice of a rank-two vector read at (r, c) is the operand at (row offset + r, column offset + c).
  * A one-row vector broadcast down M rows reads its column: (r, c) reads (0, c).
  * A rank-two vector recast with a unit axis in the middle reads the same rows and columns: (r, 0, c) reads (r, c).
-/
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

/-- A plain M x K by K x N product into the zero accumulator, read at (r, c): the sum over k of lhs (r, k) * rhs (k, c).
    The contraction index, an index of a rank-one shape, is carried to Fin K; the operand indices at (r, c) and k are
    (r, k) and (k, c) coordinate by coordinate. -/
theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A unit-stride slice at offsets (o0, o1) of a rank-two vector, read at (r, c): the operand at (o0 + r, o1 + c). -/
theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

/-- A one-row vector broadcast down M rows, read at (r, c): the row's entry c. -/
theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

/-- A rank-two vector recast to rank three with a unit axis in the middle, read at (r, z, c): the operand at (r, c). -/
theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.LibHostDot.lean ====
/-
  The host's plain product read at an entry, general in the sizes (the product at Ideal).

  * A plain M x K by K x N host product (no batch axis, one contracted axis), read at (r, c), is the sum over the
    contracted axis of lhs (r, k) * rhs (k, c), whatever the precision key.
  * An index of a rank-two shape is in the rows-block t of height B (all columns) exactly when its row lies in
    [t * B, t * B + B): stated as plain arithmetic, for the cover of an array by row blocks.
-/
import Idealize.ShloMosaic.Lib.Pipeline.Value
import Idealize.ShloMosaic.Lib.ValueIdx
import Idealize.ShloMosaic.PureOps.Ideal.Laws

noncomputable section

namespace Cert.LibHostDot

open Idealize.ShloMosaic Idealize.ShloMosaic.ValueIdx

/-- A plain M x K by K x N product on the host, read at (r, c): the sum over k of lhs (r, k) * rhs (k, c). The
    contraction index, an index of a rank-one shape, is carried to Fin K; the operand indices at (r, c) and k are
    (r, k) and (k, c) coordinate by coordinate. -/
theorem hostDot_plain_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  simp only [Host.dotGeneral]
  rw [Ideal.dotGeneral_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- The row block that holds row i, for blocks of height B over n * B rows: block i / B, and i lies in its range. -/
theorem row_in_block (B n i : Nat) (hB : 0 < B) (hi : i < n * B) : i / B < n ∧ i / B * B ≤ i ∧ i < i / B * B + B := by
  refine ⟨(Nat.div_lt_iff_lt_mul hB).mpr hi, Nat.div_mul_le_self i B, ?_⟩
  have := Nat.lt_div_mul_add hB (a := i)
  omega

end Cert.LibHostDot

end
-- ==== Proof.Ideal.Value0.lean ====
/-
  Region 0's result array, at Ideal: tanh(embedding · Wd + bd) by row blocks is the host's whole expression.
  Point t's output block is tanh of (rows 2000·t … 2000·t+1999 of the embedding times the whole weight, plus the bias
  row added to every row); the change of float format on the way into the product is the identity at Ideal, and the
  kernel's tanh and the host's are one function there. Entry (p, q) of the block is
  tanh(sum over k of emb (2000·t + p, k) · Wd (k, q) + bias (0, q)), which is entry (2000·t + p, q) of the host's
  tanh(emb · Wd + the bias row broadcast down the rows). The 50 blocks tile the 100000 rows.
-/
import proofs.«126019_j45543833207355_1_alg».proof.Proof.Ideal.Region0
import proofs.«126019_j45543833207355_1_alg».proof.Proof.LibPlainDot
import proofs.«126019_j45543833207355_1_alg».proof.Proof.LibHostDot
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem hz : (![0, 0] : Fin 2 → Nat) = fun _ => 0 := funext fun a => by fin_cases a <;> rfl

/-- The body's payload: tanh of the plain product of the first two loaded blocks into the zero accumulator plus the
    third block, one row, broadcast down the rows. -/
theorem pay_eq (xb : Vec Ideal S2000x768 .f32) (wb : Vec Ideal S768x768 .f32) (bb : Vec Ideal S1x768 .f32) :
    k0_pay1 (F := Ideal) xb wb bb = tanh (addf (matmul (F := Ideal) (φ₁ := .bf16) (φ₂ := .bf16) (DotDims.plain 2000 768 768) none xb wb (constant S2000x768 .f32 0x00000000#32))
      (broadcastTo S2000x768 bb broadcasts_S1x768_S2000x768)) := by
  unfold k0_pay1
  dsimp only
  rw [shapeCast_self]
  rfl

/-- The payload at an entry. -/
theorem pay_entry (xb : Vec Ideal S2000x768 .f32) (wb : Vec Ideal S768x768 .f32) (bb : Vec Ideal S1x768 .f32) (p : Fin 2000) (q : Fin 768) :
    k0_pay1 (F := Ideal) xb wb bb (ix2 p q) = Ideal.tanh ((∑ k : Fin 768, xb (ix2 p k) * wb (ix2 k q)) + bb (ix2 ⟨0, Nat.one_pos⟩ q)) := by
  rw [pay_eq]
  show Ideal.tanh (matmul (F := Ideal) (φ₁ := .bf16) (φ₂ := .bf16) (DotDims.plain 2000 768 768) none xb wb (constant S2000x768 .f32 0x00000000#32) (ix2 p q)
    + broadcastTo S2000x768 bb broadcasts_S1x768_S2000x768 (ix2 p q)) = _
  rw [Cert.LibPlainDot.matmul_plain_apply (φ₁ := .bf16) (φ₂ := .bf16) 2000 768 768 xb wb p q, Cert.LibPlainDot.bcastRow_apply bb broadcasts_S1x768_S2000x768 p q]

/-- The printed index maps over the grid: the embedding's and the result's row block is the point, every other block
    index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 50 :=
  (by decide +kernel : ∀ t : Fin grid0.N, _)

variable (V : (c : Dev nD) → (b : Ref sig .tc) → Buf (Elt Ideal) ((c : Thread nD τ).loc b))

/-- The three operand arrays as the region finds them, at their literal types. -/
abbrev xarr (c : Dev nD) : FVec Ideal S100000x768 .f32 := V c main_arg0
abbrev warr (c : Dev nD) : FVec Ideal S768x768 .f32 := V c main_arg5
abbrev brow (c : Dev nD) : FVec Ideal S1x768 .f32 := V c main_v0

/-- The three input blocks at point t, at their literal types. -/
abbrev xblk (c : Dev nD) (t : Fin cfg0.N) : Vec Ideal S2000x768 .f32 := blk V c 0 t
abbrev wblk (c : Dev nD) (t : Fin cfg0.N) : Vec Ideal S768x768 .f32 := blk V c 1 t
abbrev bblk (c : Dev nD) (t : Fin cfg0.N) : Vec Ideal S1x768 .f32 := blk V c 2 t

/-- What the result array ends at: the host's tanh(emb · Wd + the bias row broadcast down the rows). -/
def G (hbc : S1x768.BroadcastsInDim S100000x768 ![0, 1]) (c : Dev nD) : FVec Ideal S100000x768 .f32 :=
  Host.tanh (addf (Host.dotGeneral (F := Ideal) (φ₁ := .f32) (φ₂ := .f32) (DotDims.plain 100000 768 768) none (xarr V c) (warr V c))
    (broadcastInDim S100000x768 ![0, 1] hbc (brow V c)))

/-- The host's expression at an entry. -/
theorem G_entry (hbc : S1x768.BroadcastsInDim S100000x768 ![0, 1]) (c : Dev nD) (r : Fin 100000) (q : Fin 768) :
    G V hbc c (ix2 r q) = Ideal.tanh ((∑ k : Fin 768, xarr V c (ix2 r k) * warr V c (ix2 k q)) + brow V c (ix2 ⟨0, Nat.one_pos⟩ q)) := by
  show Ideal.tanh (Host.dotGeneral (F := Ideal) (φ₁ := .f32) (φ₂ := .f32) (DotDims.plain 100000 768 768) none (xarr V c) (warr V c) (ix2 r q)
    + broadcastInDim S100000x768 ![0, 1] hbc (brow V c) (ix2 r q)) = _
  rw [Cert.LibHostDot.hostDot_plain_apply,
    broadcastInDim_apply ![0, 1] hbc (brow V c) (ix2 r q) (ix2 ⟨0, Nat.one_pos⟩ q) (fun a => by
      match a with
      | ⟨0, _⟩ => show (0 : Nat) = if (1 : Nat) = 1 then 0 else _; rw [if_pos rfl]
      | ⟨1, _⟩ => show q.val = if (768 : Nat) = 1 then 0 else q.val; rw [if_neg (by decide)])]

/-- WHAT POINT t WRITES BACK is block t of the host's expression. -/
theorem flushed_eq (hbc : S1x768.BroadcastsInDim S100000x768 ![0, 1]) (c : Dev nD) (t : Fin cfg0.N) :
    (dat V c).flushed 3 t = ((cfg0.win 3).blk t).view.read (Elt Ideal) (G V hbc c) := by
  show (cfg0.win 3).cut (grid0.coords t) ((dat V c).after 3 t) = _
  rw [after_3]
  unfold outBlk
  rw [View.canon_unit_zero hz]
  simp only [View.ld_unit_zero (S := S2000x768) hz, View.ld_unit_zero (S := S768x768) hz, View.ld_unit_zero (S := S1x768) hz]
  obtain ⟨e0, e1, e2, e3, e4, e5, e6, e7, ht⟩ := idx_facts t
  funext j
  obtain ⟨p, q, rfl⟩ : ∃ (p : Fin 2000) (q : Fin 768), j = ix2 p q := ⟨j 0, j 1, eq_ix2 j⟩
  have hp := p.isLt
  have hq := q.isLt
  have hr : t.val * 2000 + p.val < 100000 := by omega
  have hemb : ((cfg0.win 3).blk t).view.emb (ix2 p q) = (ix2 ⟨t.val * 2000 + p.val, hr⟩ q : S100000x768.Idx) :=
    funext fun a => Fin.ext (by
      match a with
      | ⟨0, _⟩ => show win0_3.index t (0 : Fin 2) * 2000 + 1 * p.val = t.val * 2000 + p.val; omega
      | ⟨1, _⟩ => show win0_3.index t (1 : Fin 2) * 768 + 1 * q.val = q.val; omega)
  show k0_pay1 (F := Ideal) (xblk V c t) (wblk V c t) (bblk V c t) (ix2 p q) = G V hbc c (((cfg0.win 3).blk t).view.emb (ix2 p q))
  rw [hemb, G_entry]
  refine (pay_entry (xblk V c t) (wblk V c t) (bblk V c t) p q).trans ?_
  have hb : ((cfg0.win 2).blk t).view.emb (ix2 ⟨0, Nat.one_pos⟩ q) = (ix2 ⟨0, Nat.one_pos⟩ q : S1x768.Idx) :=
    funext fun a => Fin.ext (by
      match a with
      | ⟨0, _⟩ => show win0_2.index t (0 : Fin 2) * 1 + 1 * 0 = 0; omega
      | ⟨1, _⟩ => show win0_2.index t (1 : Fin 2) * 768 + 1 * q.val = q.val; omega)
  have h3 : bblk V c t (ix2 ⟨0, Nat.one_pos⟩ q) = brow V c (ix2 ⟨0, Nat.one_pos⟩ q) := by
    show brow V c (((cfg0.win 2).blk t).view.emb (ix2 ⟨0, Nat.one_pos⟩ q)) = _
    rw [hb]
  have hs : (∑ k : Fin 768, xblk V c t (ix2 p k) * wblk V c t (ix2 k q))
      = ∑ k : Fin 768, xarr V c (ix2 ⟨t.val * 2000 + p.val, hr⟩ k) * warr V c (ix2 k q) := by
    refine Finset.sum_congr rfl fun k _ => ?_
    have hk := k.isLt
    have hx : ((cfg0.win 0).blk t).view.emb (ix2 p k) = (ix2 ⟨t.val * 2000 + p.val, hr⟩ k : S100000x768.Idx) :=
      funext fun a => Fin.ext (by
        match a with
        | ⟨0, _⟩ => show win0_0.index t (0 : Fin 2) * 2000 + 1 * p.val = t.val * 2000 + p.val; omega
        | ⟨1, _⟩ => show win0_0.index t (1 : Fin 2) * 768 + 1 * k.val = k.val; omega)
    have hw : ((cfg0.win 1).blk t).view.emb (ix2 k q) = (ix2 k q : S768x768.Idx) :=
      funext fun a => Fin.ext (by
        match a with
        | ⟨0, _⟩ => show win0_1.index t (0 : Fin 2) * 768 + 1 * k.val = k.val; omega
        | ⟨1, _⟩ => show win0_1.index t (1 : Fin 2) * 768 + 1 * q.val = q.val; omega)
    have h1 : xblk V c t (ix2 p k) = xarr V c (ix2 ⟨t.val * 2000 + p.val, hr⟩ k) := by
      show xarr V c (((cfg0.win 0).blk t).view.emb (ix2 p k)) = _
      rw [hx]
    have h2 : wblk V c t (ix2 k q) = warr V c (ix2 k q) := by
      show warr V c (((cfg0.win 1).blk t).view.emb (ix2 k q)) = _
      rw [hw]
    exact congrArg₂ (fun a b : EReal => a * b) h1 h2
  exact congrArg Ideal.tanh (congrArg₂ (fun a b : EReal => a + b) hs h3)

/-- An index of the result array is in point t's block iff each coordinate is in the block's range on its axis. -/
theorem mem_blk (t : Fin cfg0.N) (i : S100000x768.Idx) :
    i ∈ ((cfg0.win 3).blk t).view.set ↔ ∀ a : Fin 2, win0_3.index t a * S2000x768.size a ≤ (i a).val ∧ (i a).val < win0_3.index t a * S2000x768.size a + S2000x768.size a := by
  show i ∈ ((View.whole main_v1).slice (win0_3.rect t)).set ↔ _
  rw [View.set_slice_whole, Rect.mem_set_unit]
  exact Iff.rfl

/-- Every row block is some point's. -/
theorem idx_onto : ∀ b : Fin 50, ∃ t : Fin cfg0.N, win0_3.index t (0 : Fin 2) = b.val ∧ win0_3.index t (1 : Fin 2) = 0 :=
  (by decide +kernel : ∀ b : Fin 50, ∃ t : Fin grid0.N, win0_3.index t (0 : Fin 2) = b.val ∧ win0_3.index t (1 : Fin 2) = 0)

/-- The 50 row blocks cover the array. -/
theorem rows_cover (i : S100000x768.Idx) : ∃ t : Fin cfg0.N, (cfg0.win 3).flush t = true ∧ i ∈ ((cfg0.win 3).blk t).view.set := by
  have hi0 : (i 0).val < 100000 := (i 0).isLt
  have hi1 : (i 1).val < 768 := (i 1).isLt
  obtain ⟨hb, hlo, hhi⟩ := Cert.LibHostDot.row_in_block 2000 50 (i 0).val (by decide) hi0
  obtain ⟨t, h0, h1⟩ := idx_onto ⟨(i 0).val / 2000, hb⟩
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; rw [h0]; exact ⟨hlo, hhi⟩
  | ⟨1, _⟩ => show win0_3.index t (1 : Fin 2) * 768 ≤ (i 1).val ∧ (i 1).val < win0_3.index t (1 : Fin 2) * 768 + 768; rw [h1]; omega

/-- THE RESULT ARRAY after the region: the host's expression of the three operand arrays as the region finds them. -/
theorem final (hbc : S1x768.BroadcastsInDim S100000x768 ![0, 1]) (c : Dev nD) : (dat V c).arrAt 3 cfg0.N = G V hbc c :=
  (dat V c).arrAt_eq_of_cover 3 (G V hbc c) (fun t _ => flushed_eq V hbc c t) rows_cover

end Cert.KernelIdeal.Region0

end
-- ==== Proof.Ideal.Value1.lean ====
/-
  Region 1's result array, at Ideal: the rows-blocked kernel product is the host's whole product.
  Point t's output block is the product of rows 2000·t … 2000·t+1999 of the left operand with the whole right operand
  (the change of float format on the way into the product is the identity at Ideal); entry (p, q) of it is the sum over
  k of left (2000·t + p, k) · right (k, q), which is entry (2000·t + p, q) of the host's product of the two whole arrays.
  The 50 blocks tile the 100000 rows, so the array ends at the host's product.
-/
import proofs.«126019_j45543833207355_1_alg».proof.Proof.Ideal.Region1
import proofs.«126019_j45543833207355_1_alg».proof.Proof.LibPlainDot
import proofs.«126019_j45543833207355_1_alg».proof.Proof.LibHostDot
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem hz : (![0, 0] : Fin 2 → Nat) = fun _ => 0 := funext fun a => by fin_cases a <;> rfl

/-- The body's payload is the plain product of its two loaded blocks into the zero accumulator. -/
theorem pay_eq (xb : Vec Ideal S2000x770 .f32) (wb : Vec Ideal S770x128 .f32) :
    k1_pay1 (F := Ideal) xb wb = matmul (F := Ideal) (φ₁ := .bf16) (φ₂ := .bf16) (DotDims.plain 2000 770 128) none xb wb (constant S2000x128 .f32 0x00000000#32) := by
  unfold k1_pay1
  dsimp only
  rw [shapeCast_self]
  rfl

/-- The payload at an entry: the row of the left block against the column of the right block. -/
theorem pay_entry (xb : Vec Ideal S2000x770 .f32) (wb : Vec Ideal S770x128 .f32) (p : Fin 2000) (q : Fin 128) :
    k1_pay1 (F := Ideal) xb wb (ix2 p q) = ∑ k : Fin 770, xb (ix2 p k) * wb (ix2 k q) := by
  rw [pay_eq]
  exact Cert.LibPlainDot.matmul_plain_apply (φ₁ := .bf16) (φ₂ := .bf16) 2000 770 128 xb wb p q

/-- The printed index maps over the grid: the left operand's and the result's row block is the point, every other block
    index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 50 :=
  (by decide +kernel : ∀ t : Fin grid1.N, _)

variable (V : (c : Dev nD) → (b : Ref sig .tc) → Buf (Elt Ideal) ((c : Thread nD τ).loc b))

/-- The two operand arrays as the region finds them, at their literal types. -/
abbrev xarr (c : Dev nD) : FVec Ideal S100000x770 .f32 := V c main_v2
abbrev warr (c : Dev nD) : FVec Ideal S770x128 .f32 := V c main_arg7

/-- What the result array ends at: the host's plain product of the two operand arrays. -/
def G (c : Dev nD) : FVec Ideal S100000x128 .f32 :=
  Host.dotGeneral (F := Ideal) (φ₁ := .f32) (φ₂ := .f32) (DotDims.plain 100000 770 128) none (xarr V c) (warr V c)

/-- WHAT POINT t WRITES BACK is block t of the host's product. -/
theorem flushed_eq (c : Dev nD) (t : Fin cfg1.N) :
    (dat V c).flushed 2 t = ((cfg1.win 2).blk t).view.read (Elt Ideal) (G V c) := by
  show (cfg1.win 2).cut (grid1.coords t) ((dat V c).after 2 t) = _
  rw [after_2]
  unfold outBlk
  rw [View.canon_unit_zero hz]
  simp only [View.ld_unit_zero (S := S2000x770) hz, View.ld_unit_zero (S := S770x128) hz]
  obtain ⟨e0, e1, e2, e3, e4, e5, ht⟩ := idx_facts t
  funext j
  obtain ⟨p, q, rfl⟩ : ∃ (p : Fin 2000) (q : Fin 128), j = ix2 p q := ⟨j 0, j 1, eq_ix2 j⟩
  have hp := p.isLt
  have hq := q.isLt
  have hr : t.val * 2000 + p.val < 100000 := by omega
  have hemb : ((cfg1.win 2).blk t).view.emb (ix2 p q) = (ix2 ⟨t.val * 2000 + p.val, hr⟩ q : S100000x128.Idx) :=
    funext fun a => Fin.ext (by
      match a with
      | ⟨0, _⟩ => show win1_2.index t (0 : Fin 2) * 2000 + 1 * p.val = t.val * 2000 + p.val; omega
      | ⟨1, _⟩ => show win1_2.index t (1 : Fin 2) * 128 + 1 * q.val = q.val; omega)
  show k1_pay1 (F := Ideal) (blk V c 0 t) (blk V c 1 t) (ix2 p q) = G V c (((cfg1.win 2).blk t).view.emb (ix2 p q))
  rw [hemb]
  refine (pay_entry _ _ p q).trans ?_
  unfold G
  rw [Cert.LibHostDot.hostDot_plain_apply]
  refine Finset.sum_congr rfl fun k _ => ?_
  have hk := k.isLt
  have hx : ((cfg1.win 0).blk t).view.emb (ix2 p k) = (ix2 ⟨t.val * 2000 + p.val, hr⟩ k : S100000x770.Idx) :=
    funext fun a => Fin.ext (by
      match a with
      | ⟨0, _⟩ => show win1_0.index t (0 : Fin 2) * 2000 + 1 * p.val = t.val * 2000 + p.val; omega
      | ⟨1, _⟩ => show win1_0.index t (1 : Fin 2) * 770 + 1 * k.val = k.val; omega)
  have hw : ((cfg1.win 1).blk t).view.emb (ix2 k q) = (ix2 k q : S770x128.Idx) :=
    funext fun a => Fin.ext (by
      match a with
      | ⟨0, _⟩ => show win1_1.index t (0 : Fin 2) * 770 + 1 * k.val = k.val; omega
      | ⟨1, _⟩ => show win1_1.index t (1 : Fin 2) * 128 + 1 * q.val = q.val; omega)
  have h1 : (blk V c 0 t : Vec Ideal S2000x770 .f32) (ix2 p k) = xarr V c (ix2 ⟨t.val * 2000 + p.val, hr⟩ k) := by
    show xarr V c (((cfg1.win 0).blk t).view.emb (ix2 p k)) = _
    rw [hx]
  have h2 : (blk V c 1 t : Vec Ideal S770x128 .f32) (ix2 k q) = warr V c (ix2 k q) := by
    show warr V c (((cfg1.win 1).blk t).view.emb (ix2 k q)) = _
    rw [hw]
  exact congrArg₂ (fun a b : EReal => a * b) h1 h2

/-- An index of the result array is in point t's block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v35).slice (win1_2.rect t)).set ↔ _
  rw [View.set_slice_whole, Rect.mem_set_unit]
  exact Iff.rfl

/-- Every row block is some point's. -/
theorem idx_onto : ∀ b : Fin 50, ∃ t : Fin cfg1.N, win1_2.index t (0 : Fin 2) = b.val ∧ win1_2.index t (1 : Fin 2) = 0 :=
  (by decide +kernel : ∀ b : Fin 50, ∃ t : Fin grid1.N, win1_2.index t (0 : Fin 2) = b.val ∧ win1_2.index t (1 : Fin 2) = 0)

/-- The 50 row blocks cover the array. -/
theorem rows_cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨hb, hlo, hhi⟩ := Cert.LibHostDot.row_in_block 2000 50 (i 0).val (by decide) hi0
  obtain ⟨t, h0, h1⟩ := idx_onto ⟨(i 0).val / 2000, hb⟩
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; rw [h0]; exact ⟨hlo, hhi⟩
  | ⟨1, _⟩ => show win1_2.index t (1 : Fin 2) * 128 ≤ (i 1).val ∧ (i 1).val < win1_2.index t (1 : Fin 2) * 128 + 128; rw [h1]; omega

/-- THE RESULT ARRAY after the region: the host's product of the two operand arrays as the region finds them. -/
theorem final (c : Dev nD) : (dat V c).arrAt 2 cfg1.N = G V c :=
  (dat V c).arrAt_eq_of_cover 2 (G V c) (fun t _ => flushed_eq V c t) rows_cover

end Cert.KernelIdeal.Region1

end
-- ==== Proof.Ideal.Value2.lean ====
/-
  Region 2's result array, at Ideal: the rows-blocked kernel product is the host's whole product.
  Point t's output block is the product of rows 2000·t … 2000·t+1999 of the left operand with the whole right operand
  (the change of float format on the way into the product is the identity at Ideal); entry (p, q) of it is the sum over
  k of left (2000·t + p, k) · right (k, q), which is entry (2000·t + p, q) of the host's product of the two whole arrays.
  The 50 blocks tile the 100000 rows, so the array ends at the host's product.
-/
import proofs.«126019_j45543833207355_1_alg».proof.Proof.Ideal.Region2
import proofs.«126019_j45543833207355_1_alg».proof.Proof.LibPlainDot
import proofs.«126019_j45543833207355_1_alg».proof.Proof.LibHostDot
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem hz : (![0, 0] : Fin 2 → Nat) = fun _ => 0 := funext fun a => by fin_cases a <;> rfl

/-- The body's payload is the plain product of its two loaded blocks into the zero accumulator. -/
theorem pay_eq (xb : Vec Ideal S2000x128 .f32) (wb : Vec Ideal S128x5 .f32) :
    k2_pay1 (F := Ideal) xb wb = matmul (F := Ideal) (φ₁ := .bf16) (φ₂ := .bf16) (DotDims.plain 2000 128 5) none xb wb (constant S2000x5 .f32 0x00000000#32) := by
  unfold k2_pay1
  dsimp only
  rw [shapeCast_self]
  rfl

/-- The payload at an entry: the row of the left block against the column of the right block. -/
theorem pay_entry (xb : Vec Ideal S2000x128 .f32) (wb : Vec Ideal S128x5 .f32) (p : Fin 2000) (q : Fin 5) :
    k2_pay1 (F := Ideal) xb wb (ix2 p q) = ∑ k : Fin 128, xb (ix2 p k) * wb (ix2 k q) := by
  rw [pay_eq]
  exact Cert.LibPlainDot.matmul_plain_apply (φ₁ := .bf16) (φ₂ := .bf16) 2000 128 5 xb wb p q

/-- The printed index maps over the grid: the left operand's and the result's row block is the point, every other block
    index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 50 :=
  (by decide +kernel : ∀ t : Fin grid2.N, _)

variable (V : (c : Dev nD) → (b : Ref sig .tc) → Buf (Elt Ideal) ((c : Thread nD τ).loc b))

/-- The two operand arrays as the region finds them, at their literal types. -/
abbrev xarr (c : Dev nD) : FVec Ideal S100000x128 .f32 := V c main_v52
abbrev warr (c : Dev nD) : FVec Ideal S128x5 .f32 := V c main_arg9

/-- What the result array ends at: the host's plain product of the two operand arrays. -/
def G (c : Dev nD) : FVec Ideal S100000x5 .f32 :=
  Host.dotGeneral (F := Ideal) (φ₁ := .f32) (φ₂ := .f32) (DotDims.plain 100000 128 5) none (xarr V c) (warr V c)

/-- WHAT POINT t WRITES BACK is block t of the host's product. -/
theorem flushed_eq (c : Dev nD) (t : Fin cfg2.N) :
    (dat V c).flushed 2 t = ((cfg2.win 2).blk t).view.read (Elt Ideal) (G V c) := by
  show (cfg2.win 2).cut (grid2.coords t) ((dat V c).after 2 t) = _
  rw [after_2]
  unfold outBlk
  rw [View.canon_unit_zero hz]
  simp only [View.ld_unit_zero (S := S2000x128) hz, View.ld_unit_zero (S := S128x5) hz]
  obtain ⟨e0, e1, e2, e3, e4, e5, ht⟩ := idx_facts t
  funext j
  obtain ⟨p, q, rfl⟩ : ∃ (p : Fin 2000) (q : Fin 5), j = ix2 p q := ⟨j 0, j 1, eq_ix2 j⟩
  have hp := p.isLt
  have hq := q.isLt
  have hr : t.val * 2000 + p.val < 100000 := by omega
  have hemb : ((cfg2.win 2).blk t).view.emb (ix2 p q) = (ix2 ⟨t.val * 2000 + p.val, hr⟩ q : S100000x5.Idx) :=
    funext fun a => Fin.ext (by
      match a with
      | ⟨0, _⟩ => show win2_2.index t (0 : Fin 2) * 2000 + 1 * p.val = t.val * 2000 + p.val; omega
      | ⟨1, _⟩ => show win2_2.index t (1 : Fin 2) * 5 + 1 * q.val = q.val; omega)
  show k2_pay1 (F := Ideal) (blk V c 0 t) (blk V c 1 t) (ix2 p q) = G V c (((cfg2.win 2).blk t).view.emb (ix2 p q))
  rw [hemb]
  refine (pay_entry _ _ p q).trans ?_
  unfold G
  rw [Cert.LibHostDot.hostDot_plain_apply]
  refine Finset.sum_congr rfl fun k _ => ?_
  have hk := k.isLt
  have hx : ((cfg2.win 0).blk t).view.emb (ix2 p k) = (ix2 ⟨t.val * 2000 + p.val, hr⟩ k : S100000x128.Idx) :=
    funext fun a => Fin.ext (by
      match a with
      | ⟨0, _⟩ => show win2_0.index t (0 : Fin 2) * 2000 + 1 * p.val = t.val * 2000 + p.val; omega
      | ⟨1, _⟩ => show win2_0.index t (1 : Fin 2) * 128 + 1 * k.val = k.val; omega)
  have hw : ((cfg2.win 1).blk t).view.emb (ix2 k q) = (ix2 k q : S128x5.Idx) :=
    funext fun a => Fin.ext (by
      match a with
      | ⟨0, _⟩ => show win2_1.index t (0 : Fin 2) * 128 + 1 * k.val = k.val; omega
      | ⟨1, _⟩ => show win2_1.index t (1 : Fin 2) * 5 + 1 * q.val = q.val; omega)
  have h1 : (blk V c 0 t : Vec Ideal S2000x128 .f32) (ix2 p k) = xarr V c (ix2 ⟨t.val * 2000 + p.val, hr⟩ k) := by
    show xarr V c (((cfg2.win 0).blk t).view.emb (ix2 p k)) = _
    rw [hx]
  have h2 : (blk V c 1 t : Vec Ideal S128x5 .f32) (ix2 k q) = warr V c (ix2 k q) := by
    show warr V c (((cfg2.win 1).blk t).view.emb (ix2 k q)) = _
    rw [hw]
  exact congrArg₂ (fun a b : EReal => a * b) h1 h2

/-- An index of the result array is in point t's block iff each coordinate is in the block's range on its axis. -/
theorem mem_blk (t : Fin cfg2.N) (i : S100000x5.Idx) :
    i ∈ ((cfg2.win 2).blk t).view.set ↔ ∀ a : Fin 2, win2_2.index t a * S2000x5.size a ≤ (i a).val ∧ (i a).val < win2_2.index t a * S2000x5.size a + S2000x5.size a := by
  show i ∈ ((View.whole main_v53).slice (win2_2.rect t)).set ↔ _
  rw [View.set_slice_whole, Rect.mem_set_unit]
  exact Iff.rfl

/-- Every row block is some point's. -/
theorem idx_onto : ∀ b : Fin 50, ∃ t : Fin cfg2.N, win2_2.index t (0 : Fin 2) = b.val ∧ win2_2.index t (1 : Fin 2) = 0 :=
  (by decide +kernel : ∀ b : Fin 50, ∃ t : Fin grid2.N, win2_2.index t (0 : Fin 2) = b.val ∧ win2_2.index t (1 : Fin 2) = 0)

/-- The 50 row blocks cover the array. -/
theorem rows_cover (i : S100000x5.Idx) : ∃ t : Fin cfg2.N, (cfg2.win 2).flush t = true ∧ i ∈ ((cfg2.win 2).blk t).view.set := by
  have hi0 : (i 0).val < 100000 := (i 0).isLt
  have hi1 : (i 1).val < 5 := (i 1).isLt
  obtain ⟨hb, hlo, hhi⟩ := Cert.LibHostDot.row_in_block 2000 50 (i 0).val (by decide) hi0
  obtain ⟨t, h0, h1⟩ := idx_onto ⟨(i 0).val / 2000, hb⟩
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; rw [h0]; exact ⟨hlo, hhi⟩
  | ⟨1, _⟩ => show win2_2.index t (1 : Fin 2) * 5 ≤ (i 1).val ∧ (i 1).val < win2_2.index t (1 : Fin 2) * 5 + 5; rw [h1]; omega

/-- THE RESULT ARRAY after the region: the host's product of the two operand arrays as the region finds them. -/
theorem final (c : Dev nD) : (dat V c).arrAt 2 cfg2.N = G V c :=
  (dat V c).arrAt_eq_of_cover 2 (G V c) (fun t _ => flushed_eq V c t) rows_cover

end Cert.KernelIdeal.Region2

end
-- ==== Proof.LibTypedRef.lean ====
/-
  A typed reference's transports are the identity up to the type equation they are along.
  The operations of an outlined host function read and write their buffers through a typed reference: contents at the
  value's type are carried to contents of the buffer along the equation "the buffer's type is the value's", and back.
  Either transport is heterogeneously equal to its argument; where the two types are the same type, it is equal to it.
-/
import Idealize.ShloMosaic.Lib.StableHlo

noncomputable section

namespace Cert.LibTypedRef

open Idealize.ShloMosaic Idealize.ShloMosaic.StableHlo

variable {sig : RefSig} {T : BufTy} {Val : EltTy → Type}

/-- Contents read back at the value's type are the buffer's contents. -/
theorem ofBuf_heq (x : TRef sig T) (w : x.ref.ty.Contents Val) : HEq (x.ofBuf w) w := cast_heq _ _

/-- Contents carried to the buffer's type are the value. -/
theorem toBuf_heq (x : TRef sig T) (v : T.Contents Val) : HEq (x.toBuf v) v := cast_heq _ _

/-- Carried to the buffer and read back: the value. -/
theorem ofBuf_toBuf (x : TRef sig T) (v : T.Contents Val) : x.ofBuf (x.toBuf v) = v :=
  eq_of_heq ((ofBuf_heq x (x.toBuf v)).trans (toBuf_heq x v))

end Cert.LibTypedRef

end
-- ==== Proof.Ideal.Stages.lean ====
/-
  The result buffer at the return, at Ideal, as the reference's own stages of the arguments.
  The host operations of the two programs are the same operations on the same values; where the reference forms a whole
  product on the host, this program's region leaves the same array (the three region modules' value lemmas). So every
  value that crosses from one item of @main to a later one is the reference's stage of the arguments with the same
  meaning: the bias row; h; the concatenation x; the edge lists with the self loops; the weights with the constant
  appended; the per-edge normalisation; x · W1; the first layer's aggregate with its bias, and its relu; x2 · W2; the
  second layer's aggregate with its bias, which is the result.
-/
import proofs.«126019_j45543833207355_1_alg».proof.Proof.Ideal.Frame
import proofs.«126019_j45543833207355_1_alg».proof.Proof.Ideal.Value0
import proofs.«126019_j45543833207355_1_alg».proof.Proof.Ideal.Value1
import proofs.«126019_j45543833207355_1_alg».proof.Proof.Ideal.Value2
import proofs.«126019_j45543833207355_1_alg».proof.Proof.Gen.ReferenceIdeal.Read
import proofs.«126019_j45543833207355_1_alg».proof.Proof.LibTypedRef
import Idealize.ShloMosaic.Lib.StableHlo.Run
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.StableHlo Idealize.ShloMosaic.ValueIdx
open Idealize.SL Idealize.SL.Sem
open Cert.ReferenceIdeal.Read (val_main_v1 val_main_v4 val_main_v5 val_main_v11 val_main_v12 val_main_v14 val_main_v19 val_main_v20
  val_main_cst_2 val_main_v21 val_main_v37 val_main_v38 val_main_v54 val_main_v55 val_main_v56 val_main_v72)

variable (m : (ℓ : Loc nD τ sig) → Buf (Elt Ideal) ℓ) (c : Dev nD)

/-! ## The arguments' launch contents, and that no item before a boundary has written an argument -/

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)

theorem W1_arg (r : Ref sig .tc) (h0 : r ∉ hostOps0_W) : W1 m c r = m ((c : Thread nD τ).loc r) :=
  StableHlo.after_of_writes_sub hostOps0 _ hostOps0_writes h0
theorem W2_arg (r : Ref sig .tc) (h0 : r ∉ hostOps0_W) (h1 : r ≠ main_v1) : W2 m c r = m ((c : Thread nD τ).loc r) :=
  (W2_keep m c r h1).trans (W1_arg m c r h0)
theorem W5_of_W2 (r : Ref sig .tc) (h2 : r ∉ hostOps1_W) (h3 : r ∉ hostOps1_1_W) (h4 : r ∉ hostOps1_2_W) : W5 m c r = W2 m c r :=
  (StableHlo.after_of_writes_sub hostOps1_2 _ hostOps1_2_writes h4).trans <|
    (StableHlo.after_of_writes_sub hostOps1_1 _ hostOps1_1_writes h3).trans <|
      StableHlo.after_of_writes_sub hostOps1 _ hostOps1_writes h2
theorem W8_of_W6 (r : Ref sig .tc) (h6 : r ∉ hostOps2_W) (h7 : r ∉ hostOps2_1_W) : W8 m c r = W6 m c r :=
  (StableHlo.after_of_writes_sub hostOps2_1 _ hostOps2_1_writes h7).trans <|
    StableHlo.after_of_writes_sub hostOps2 _ hostOps2_writes h6

/-! ## The outlined functions' buffers: a transport along "the buffer's type is the value's" is the identity there -/

theorem of_v16 (p1 : main_v16.ty = ⟨S100000, .i1⟩) (p2 : main_v16.space ≠ .host) (p3 : main_v16.isScoped = false) (w : (⟨S100000, .i1⟩ : BufTy).Contents (Elt Ideal)) :
    (TRef.of (T := ⟨S100000, .i1⟩) main_v16 p1 p2 p3).ofBuf (Val := Elt Ideal) w = w :=
  eq_of_heq (Cert.LibTypedRef.ofBuf_heq (Val := Elt Ideal) (TRef.of (T := ⟨S100000, .i1⟩) main_v16 p1 p2 p3) w)
theorem of_v17 (p1 : main_v17.ty = ⟨S100000, .f32⟩) (p2 : main_v17.space ≠ .host) (p3 : main_v17.isScoped = false) (w : (⟨S100000, .f32⟩ : BufTy).Contents (Elt Ideal)) :
    (TRef.of (T := ⟨S100000, .f32⟩) main_v17 p1 p2 p3).ofBuf (Val := Elt Ideal) w = w :=
  eq_of_heq (Cert.LibTypedRef.ofBuf_heq (Val := Elt Ideal) (TRef.of (T := ⟨S100000, .f32⟩) main_v17 p1 p2 p3) w)
theorem of_cst2 (p1 : main_cst_2.ty = ⟨S_, .f32⟩) (p2 : main_cst_2.space ≠ .host) (p3 : main_cst_2.isScoped = false) (w : (⟨S_, .f32⟩ : BufTy).Contents (Elt Ideal)) :
    (TRef.of (T := ⟨S_, .f32⟩) main_cst_2 p1 p2 p3).ofBuf (Val := Elt Ideal) w = w :=
  eq_of_heq (Cert.LibTypedRef.ofBuf_heq (Val := Elt Ideal) (TRef.of (T := ⟨S_, .f32⟩) main_cst_2 p1 p2 p3) w)
theorem to_v18 (p1 : main_v18.ty = ⟨S100000, .f32⟩) (p2 : main_v18.space ≠ .host) (p3 : main_v18.isScoped = false) (v : (⟨S100000, .f32⟩ : BufTy).Contents (Elt Ideal)) :
    (TRef.of (T := ⟨S100000, .f32⟩) main_v18 p1 p2 p3).toBuf (Val := Elt Ideal) v = v := eq_of_heq (Cert.LibTypedRef.toBuf_heq _ v)
theorem of_v51 (p1 : main_v51.ty = ⟨S100000x128, .f32⟩) (p2 : main_v51.space ≠ .host) (p3 : main_v51.isScoped = false) (w : (⟨S100000x128, .f32⟩ : BufTy).Contents (Elt Ideal)) :
    (TRef.of (T := ⟨S100000x128, .f32⟩) main_v51 p1 p2 p3).ofBuf (Val := Elt Ideal) w = w :=
  eq_of_heq (Cert.LibTypedRef.ofBuf_heq (Val := Elt Ideal) (TRef.of (T := ⟨S100000x128, .f32⟩) main_v51 p1 p2 p3) w)
theorem to_v52 (p1 : main_v52.ty = ⟨S100000x128, .f32⟩) (p2 : main_v52.space ≠ .host) (p3 : main_v52.isScoped = false) (v : (⟨S100000x128, .f32⟩ : BufTy).Contents (Elt Ideal)) :
    (TRef.of (T := ⟨S100000x128, .f32⟩) main_v52 p1 p2 p3).toBuf (Val := Elt Ideal) v = v := eq_of_heq (Cert.LibTypedRef.toBuf_heq _ v)

/-! ## Region 0 and what it reads -/

/-- The bias reshaped to one row is the bias broadcast to one row: entry (0, q) of either is entry q of the bias. -/
theorem S1_v0 : W1 m c main_v0 = val_main_v1 (a6 m c) := by
  show StableHlo.after hostOps0 (W0 m c) (Proc.devRef .tc main_v0) = _
  after_results
  funext j
  rw [Cert.ReferenceIdeal.Read.val_main_v1_apply]
  refine shapeCast_apply _ _ j _ ?_
  show (Shape.rowMajor S768 (Cert.ReferenceIdeal.Read.idx_main_v1 j)).val = (Shape.rowMajor S1x768 j).val
  rw [Shape.rowMajor_val_one, Shape.rowMajor_val_two]
  have h0 : (j 0).val < 1 := (j 0).isLt
  show (j 1).val = (j 0).val * 768 + (j 1).val
  omega

/-- h, the first region's result. -/
theorem S2_v1 : W2 m c main_v1 = val_main_v4 (a0 m c) (a5 m c) (a6 m c) := by
  refine (W2_arr m c 3).trans ?_
  rw [Region0.final (R1 m) Cert.ReferenceIdeal.Facts₀.bcast_S1x768_S100000x768_0_1 c]
  unfold Region0.G
  rw [show Region0.xarr (R1 m) c = (a0 m c) from W1_arg m c main_arg0 (by decide),
    show Region0.warr (R1 m) c = (a5 m c) from W1_arg m c main_arg5 (by decide),
    show Region0.brow (R1 m) c = val_main_v1 (a6 m c) from S1_v0 m c]
  rfl

/-! ## The host operations between region 0 and region 1 -/

/-- x = [h, p_num, text_len]. -/
theorem S3_v2 : W3 m c main_v2 = val_main_v5 (a0 m c) (a1 m c) (a2 m c) (a5 m c) (a6 m c) := by
  have h1 := S2_v1 m c
  have e1 : W2 m c main_arg1 = (a1 m c) := W2_arg m c main_arg1 (by decide) (by decide)
  have e2 : W2 m c main_arg2 = (a2 m c) := W2_arg m c main_arg2 (by decide) (by decide)
  show StableHlo.after hostOps1 (W2 m c) (Proc.devRef .tc main_v2) = _
  generalize W2 m c = V at h1 e1 e2 ⊢
  after_results
  show concatenate S100000x770 1 [⟨S100000x768, V (Proc.devRef .tc main_v1)⟩, ⟨S100000x1, V (Proc.devRef .tc main_arg1)⟩,
    ⟨S100000x1, V (Proc.devRef .tc main_arg2)⟩] concatenates_S100000x768_S100000x1_S100000x1_S100000x770_d1 = _
  rw [h1, e1, e2]
  rfl

/-- The source list with the self loops appended. -/
theorem S3_v8 : W3 m c main_v8 = val_main_v11 (a3 m c) := by
  have e3 : W2 m c main_arg3 = (a3 m c) := W2_arg m c main_arg3 (by decide) (by decide)
  show StableHlo.after hostOps1 (W2 m c) (Proc.devRef .tc main_v8) = _
  generalize W2 m c = V at e3 ⊢
  after_results
  rw [e3]
  rfl

/-- The target list with the self loops appended. -/
theorem S3_v9 : W3 m c main_v9 = val_main_v12 (a3 m c) := by
  have e3 : W2 m c main_arg3 = (a3 m c) := W2_arg m c main_arg3 (by decide) (by decide)
  show StableHlo.after hostOps1 (W2 m c) (Proc.devRef .tc main_v9) = _
  generalize W2 m c = V at e3 ⊢
  after_results
  rw [e3]
  rfl

/-- The edge weights with the self loops' constant appended. -/
theorem S3_v11 : W3 m c main_v11 = val_main_v14 (a4 m c) := by
  have e4 : W2 m c main_arg4 = (a4 m c) := W2_arg m c main_arg4 (by decide) (by decide)
  show StableHlo.after hostOps1 (W2 m c) (Proc.devRef .tc main_v11) = _
  generalize W2 m c = V at e4 ⊢
  after_results
  rw [e4]
  rfl

/-- Where the degree sum is positive. -/
theorem S3_v16 : W3 m c main_v16 = val_main_v19 (a3 m c) (a4 m c) := by
  have e3 : W2 m c main_arg3 = (a3 m c) := W2_arg m c main_arg3 (by decide) (by decide)
  have e4 : W2 m c main_arg4 = (a4 m c) := W2_arg m c main_arg4 (by decide) (by decide)
  show StableHlo.after hostOps1 (W2 m c) (Proc.devRef .tc main_v16) = _
  generalize W2 m c = V at e3 e4 ⊢
  after_results
  rw [e3, e4]
  rfl

/-- The inverse square root of the degree sum. -/
theorem S3_v17 : W3 m c main_v17 = val_main_v20 (a3 m c) (a4 m c) := by
  have e3 : W2 m c main_arg3 = (a3 m c) := W2_arg m c main_arg3 (by decide) (by decide)
  have e4 : W2 m c main_arg4 = (a4 m c) := W2_arg m c main_arg4 (by decide) (by decide)
  show StableHlo.after hostOps1 (W2 m c) (Proc.devRef .tc main_v17) = _
  generalize W2 m c = V at e3 e4 ⊢
  after_results
  rw [e3, e4]
  rfl

/-- The zero the select falls back to. -/
theorem S3_cst2 : W3 m c main_cst_2 = val_main_cst_2 (F := Ideal) := by
  show StableHlo.after hostOps1 (W2 m c) (Proc.devRef .tc main_cst_2) = _
  generalize W2 m c = V
  after_results
  rfl

/-- The inverse square root where the degree is positive, zero elsewhere. -/
theorem S4_v18 : W4 m c main_v18 = val_main_v21 (a3 m c) (a4 m c) := by
  have h16 := S3_v16 m c
  have h17 := S3_v17 m c
  have hc := S3_cst2 m c
  show StableHlo.after hostOps1_1 (W3 m c) (Proc.devRef .tc main_v18) = _
  generalize W3 m c = V at h16 h17 hc ⊢
  after_results_simp
  rw [h16, h17, hc]
  rw [Cert.LibTypedRef.ofBuf_toBuf, Cert.LibTypedRef.ofBuf_toBuf, of_v16, of_v17, of_cst2, to_v18]
  rfl

set_option maxHeartbeats 4000000 in
/-- The per-edge normalisation. -/
theorem S5_v34 : W5 m c main_v34 = val_main_v37 (a3 m c) (a4 m c) := by
  have h8 : W4 m c main_v8 = val_main_v11 (a3 m c) := (StableHlo.after_of_writes_sub hostOps1_1 _ hostOps1_1_writes (by decide)).trans (S3_v8 m c)
  have h9 : W4 m c main_v9 = val_main_v12 (a3 m c) := (StableHlo.after_of_writes_sub hostOps1_1 _ hostOps1_1_writes (by decide)).trans (S3_v9 m c)
  have h11 : W4 m c main_v11 = val_main_v14 (a4 m c) := (StableHlo.after_of_writes_sub hostOps1_1 _ hostOps1_1_writes (by decide)).trans (S3_v11 m c)
  have h18 := S4_v18 m c
  show StableHlo.after hostOps1_2 (W4 m c) (Proc.devRef .tc main_v34) = _
  generalize W4 m c = V at h8 h9 h11 h18 ⊢
  after_results
  rw [h8, h9, h11, h18]
  rfl

/-! ## Region 1, and what crosses it -/

theorem S5_v2 : W5 m c main_v2 = val_main_v5 (a0 m c) (a1 m c) (a2 m c) (a5 m c) (a6 m c) :=
  ((StableHlo.after_of_writes_sub hostOps1_2 _ hostOps1_2_writes (by decide)).trans
    (StableHlo.after_of_writes_sub hostOps1_1 _ hostOps1_1_writes (by decide))).trans (S3_v2 m c)
theorem S5_v8 : W5 m c main_v8 = val_main_v11 (a3 m c) :=
  ((StableHlo.after_of_writes_sub hostOps1_2 _ hostOps1_2_writes (by decide)).trans
    (StableHlo.after_of_writes_sub hostOps1_1 _ hostOps1_1_writes (by decide))).trans (S3_v8 m c)
theorem S5_v9 : W5 m c main_v9 = val_main_v12 (a3 m c) :=
  ((StableHlo.after_of_writes_sub hostOps1_2 _ hostOps1_2_writes (by decide)).trans
    (StableHlo.after_of_writes_sub hostOps1_1 _ hostOps1_1_writes (by decide))).trans (S3_v9 m c)

/-- x · W1, the second region's result. -/
theorem S6_v35 : W6 m c main_v35 = val_main_v38 (a0 m c) (a1 m c) (a2 m c) (a5 m c) (a6 m c) (a7 m c) := by
  refine (W6_arr m c 2).trans ?_
  rw [Region1.final (R5 m) c]
  unfold Region1.G
  rw [show Region1.xarr (R5 m) c = val_main_v5 (a0 m c) (a1 m c) (a2 m c) (a5 m c) (a6 m c) from S5_v2 m c,
    show Region1.warr (R5 m) c = (a7 m c) from (W5_of_W2 m c main_arg7 (by decide) (by decide) (by decide)).trans (W2_arg m c main_arg7 (by decide) (by decide))]
  rfl

theorem S6_v8 : W6 m c main_v8 = val_main_v11 (a3 m c) := (W6_keep m c main_v8 (by decide)).trans (S5_v8 m c)
theorem S6_v9 : W6 m c main_v9 = val_main_v12 (a3 m c) := (W6_keep m c main_v9 (by decide)).trans (S5_v9 m c)
theorem S6_v34 : W6 m c main_v34 = val_main_v37 (a3 m c) (a4 m c) := (W6_keep m c main_v34 (by decide)).trans (S5_v34 m c)
theorem W6_arg (r : Ref sig .tc) (h0 : r ∉ hostOps0_W) (h1 : r ≠ main_v1) (h2 : r ∉ hostOps1_W) (h3 : r ∉ hostOps1_1_W)
    (h4 : r ∉ hostOps1_2_W) (h5 : r ≠ main_v35) : W6 m c r = m ((c : Thread nD τ).loc r) :=
  (W6_keep m c r h5).trans ((W5_of_W2 m c r h2 h3 h4).trans (W2_arg m c r h0 h1))

/-! ## The first layer's aggregation and relu -/

set_option maxHeartbeats 4000000 in
theorem S7_v51 : W7 m c main_v51 = val_main_v54 (a0 m c) (a1 m c) (a2 m c) (a3 m c) (a4 m c) (a5 m c) (a6 m c) (a7 m c) (a8 m c) := by
  have h8 := S6_v8 m c
  have h9 := S6_v9 m c
  have h34 := S6_v34 m c
  have h35 := S6_v35 m c
  have e8 : W6 m c main_arg8 = (a8 m c) := W6_arg m c main_arg8 (by decide) (by decide) (by decide) (by decide) (by decide) (by decide)
  show StableHlo.after hostOps2 (W6 m c) (Proc.devRef .tc main_v51) = _
  generalize W6 m c = V at h8 h9 h34 h35 e8 ⊢
  after_results
  rw [h8, h9, h34, h35, e8]
  rfl

theorem S8_v52 : W8 m c main_v52 = val_main_v55 (a0 m c) (a1 m c) (a2 m c) (a3 m c) (a4 m c) (a5 m c) (a6 m c) (a7 m c) (a8 m c) := by
  have h51 := S7_v51 m c
  show StableHlo.after hostOps2_1 (W7 m c) (Proc.devRef .tc main_v52) = _
  generalize W7 m c = V at h51 ⊢
  after_results_simp
  rw [h51]
  rw [Cert.LibTypedRef.ofBuf_toBuf, Cert.LibTypedRef.ofBuf_toBuf, of_v51, to_v52]
  rfl

/-! ## Region 2, and the second layer's aggregation -/

/-- x2 · W2, the third region's result. -/
theorem S9_v53 : W9 m c main_v53 = val_main_v56 (a0 m c) (a1 m c) (a2 m c) (a3 m c) (a4 m c) (a5 m c) (a6 m c) (a7 m c) (a8 m c) (a9 m c) := by
  refine (W9_arr m c 2).trans ?_
  rw [Region2.final (R8 m) c]
  unfold Region2.G
  rw [show Region2.xarr (R8 m) c = val_main_v55 (a0 m c) (a1 m c) (a2 m c) (a3 m c) (a4 m c) (a5 m c) (a6 m c) (a7 m c) (a8 m c) from S8_v52 m c,
    show Region2.warr (R8 m) c = (a9 m c) from (W8_of_W6 m c main_arg9 (by decide) (by decide)).trans
      (W6_arg m c main_arg9 (by decide) (by decide) (by decide) (by decide) (by decide) (by decide))]
  rfl

theorem S9_v8 : W9 m c main_v8 = val_main_v11 (a3 m c) :=
  (W9_keep m c main_v8 (by decide)).trans ((W8_of_W6 m c main_v8 (by decide) (by decide)).trans (S6_v8 m c))
theorem S9_v9 : W9 m c main_v9 = val_main_v12 (a3 m c) :=
  (W9_keep m c main_v9 (by decide)).trans ((W8_of_W6 m c main_v9 (by decide) (by decide)).trans (S6_v9 m c))
theorem S9_v34 : W9 m c main_v34 = val_main_v37 (a3 m c) (a4 m c) :=
  (W9_keep m c main_v34 (by decide)).trans ((W8_of_W6 m c main_v34 (by decide) (by decide)).trans (S6_v34 m c))

set_option maxHeartbeats 4000000 in
/-- THE RESULT at the return is the reference's last stage of the arguments. -/
theorem S10_v69 : W10 m c main_v69
    = val_main_v72 (a0 m c) (a1 m c) (a2 m c) (a3 m c) (a4 m c) (a5 m c) (a6 m c) (a7 m c) (a8 m c) (a9 m c) (a10 m c) := by
  have h8 := S9_v8 m c
  have h9 := S9_v9 m c
  have h34 := S9_v34 m c
  have h53 := S9_v53 m c
  have e10 : W9 m c main_arg10 = (a10 m c) := (W9_keep m c main_arg10 (by decide)).trans ((W8_of_W6 m c main_arg10 (by decide) (by decide)).trans
    (W6_arg m c main_arg10 (by decide) (by decide) (by decide) (by decide) (by decide) (by decide)))
  show StableHlo.after hostOps3 (W9 m c) (Proc.devRef .tc main_v69) = _
  generalize W9 m c = V at h8 h9 h34 h53 e10 ⊢
  after_results
  rw [h8, h9, h34, h53, e10]
  rfl

end Cert.KernelIdeal.Run

end
-- ==== Proof.lean ====
/-
  The kernel computes a two-layer graph convolution over 100000 nodes: h = tanh(embedding · Wd + bd); x = [h, p_num,
  text_len]; the edge lists with a self loop per node, the edge weights with 2 for each self loop, the degree sums over
  targets, their inverse square roots where positive, the per-edge normalisation dis[source] · weight · dis[target]; then
  twice: a dense product (x · W1, then relu(layer 1) · W2), a gather by source, a scaling by the normalisation, a
  scatter-add by target, and the bias. The three dense products (the first with its bias and tanh) are kernel regions over
  50 row blocks of 2000 rows, their operands rounded to bf16 on the way in; everything else is host operations, the very
  operations of the reference.

  Frames. Each region's body loads its input blocks whole, computes, and stores its whole output block; the pipeline
  stages the blocks and writes the output block back, so a region changes its result array only. Between two items of
  @main every buffer is at a known valuation, and no item writes an argument, so the arguments end as launched. This holds
  for the word-level program and for its idealization alike. The reference is host operations only.

  Values, at Ideal. A change of float format is the identity there, a product into a zero accumulator is the plain sum of
  products, and the kernel's tanh is the host's. Entry (p, q) of point t's output block is therefore the sum over k of
  left (2000·t + p, k) · right (k, q) (plus the bias entry q, under tanh, for the first region): entry (2000·t + p, q) of the
  reference's whole host product. The 50 blocks tile the rows, so each region's array is the reference's array, and the
  shared host operations, applied to equal values, give equal results. No law of the extended reals beyond the equality
  of these sums is used, so the precondition (finite inputs) is never opened; an index of the edge lists may be any word,
  since gather and scatter-add are total host functions read the same way on both sides.

  The ideal pass rewrote nothing, so the sanctioned-idealization conjunct is trivial.
-/
import proofs.«126019_j45543833207355_1_alg».proof.Defs
import proofs.«126019_j45543833207355_1_alg».proof.Proof.Gen.Kernel
import proofs.«126019_j45543833207355_1_alg».proof.Proof.Gen.KernelIdeal
import proofs.«126019_j45543833207355_1_alg».proof.Proof.Gen.ReferenceIdeal
import proofs.«126019_j45543833207355_1_alg».proof.Proof.Gen.Pre_finite_inputs
import proofs.«126019_j45543833207355_1_alg».proof.Proof.Gen.ReferenceIdeal.Run
import proofs.«126019_j45543833207355_1_alg».proof.Proof.Gen.ReferenceIdeal.Read
import proofs.«126019_j45543833207355_1_alg».proof.Proof.Bits.Frame
import proofs.«126019_j45543833207355_1_alg».proof.Proof.Ideal.Frame
import proofs.«126019_j45543833207355_1_alg».proof.Proof.Ideal.Stages
import Idealize.ShloMosaic.Adequacy
import Idealize.ShloMosaic.Init

noncomputable section

namespace Cert.Proof

open Idealize.ShloMosaic Idealize.ShloMosaic.TcCoe Idealize.SL.Sem

/-- The word-level program runs to the end, faults nowhere, and leaves its arguments as launched. -/
theorem frame_kernel : Cert.frame_Kernel := fun m ρ _ => Cert.Kernel.Run.frame m ρ

/-- So does its idealization. -/
theorem frame_kernelIdeal : Cert.frame_KernelIdeal := fun m ρ _ => Cert.KernelIdeal.Run.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the same result: the kernel program's result buffer is
    the reference's last stage of the kernel's arguments, the reference's is that stage of its own, and the arguments
    agree. -/
theorem algebraic : Cert.algebraic_KernelIdeal_ReferenceIdeal := by
  intro m ρ m' ρ' _ hagree
  refine ⟨fun c => Cert.KernelIdeal.Run.W10 m c Cert.KernelIdeal.main_v69, Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  show _ = Cert.KernelIdeal.Run.W10 m c Cert.KernelIdeal.main_v69
  rw [Cert.ReferenceIdeal.Read.val_main_v72_eq, Cert.KernelIdeal.Run.S10_v69, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
